-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S2048x1024 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x128 : Shape := ⟨2, ![256, 128]⟩
abbrev S128x1024 : Shape := ⟨2, ![128, 1024]⟩
abbrev S128x128 : Shape := ⟨2, ![128, 128]⟩
abbrev S1024x128 : Shape := ⟨2, ![1024, 128]⟩
abbrev S1x1024 : Shape := ⟨2, ![1, 1024]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128x1024 : S_.BroadcastsInDim S128x1024 (![] : Fin 0 → Fin S128x1024.rank)
  reducesTo_S128x1024_S_d0_1 : S128x1024.ReducesTo [0, 1] S_
  bcast_S_S128x128 : S_.BroadcastsInDim S128x128 (![] : Fin 0 → Fin S128x128.rank)
  reducesTo_S128x128_S_d0_1 : S128x128.ReducesTo [0, 1] S_
  bcast_S_S1024x128 : S_.BroadcastsInDim S1024x128 (![] : Fin 0 → Fin S1024x128.rank)
  reducesTo_S1024x128_S_d0_1 : S1024x128.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S1024x128 .f32) (main_arg6 : FVec F S1x1024 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S256x128 .f32) (main_arg2 : FVec F S128x1024 .f32) (main_arg3 : FVec F S128x128 .f32) (main_arg4 : FVec F S128x128 .f32) (main_arg5 : FVec F S1024x128 .f32) (main_arg6 : FVec F S1x1024 .f32) (main_arg7 : FVec F S1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S256x128 : Shape := ⟨2, ![256, 128]⟩
abbrev S128x1024 : Shape := ⟨2, ![128, 1024]⟩
abbrev S128x128 : Shape := ⟨2, ![128, 128]⟩
abbrev S1024x128 : Shape := ⟨2, ![1024, 128]⟩
abbrev S1x1024 : Shape := ⟨2, ![1, 1024]⟩
abbrev S1 : Shape := ⟨1, ![1]⟩
abbrev S128x256 : Shape := ⟨2, ![128, 256]⟩
abbrev S1x1 : Shape := ⟨2, ![1, 1]⟩
abbrev S1x2048x1024 : Shape := ⟨3, ![1, 2048, 1024]⟩
abbrev S2048x1024 : Shape := ⟨2, ![2048, 1024]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 27
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S256x128, .f32⟩
  | .hbm, ⟨2, _⟩ => ⟨S128x1024, .f32⟩
  | .hbm, ⟨3, _⟩ => ⟨S128x128, .f32⟩
  | .hbm, ⟨4, _⟩ => ⟨S128x128, .f32⟩
  | .hbm, ⟨5, _⟩ => ⟨S1024x128, .f32⟩
  | .hbm, ⟨6, _⟩ => ⟨S1x1024, .f32⟩
  | .hbm, ⟨7, _⟩ => ⟨S1, .f32⟩
  | .hbm, ⟨8, _⟩ => ⟨S128x128, .f32⟩
  | .hbm, ⟨9, _⟩ => ⟨S256x128, .f32⟩
  | .hbm, ⟨10, _⟩ => ⟨S128x128, .f32⟩
  | .hbm, ⟨11, _⟩ => ⟨S256x128, .f32⟩
  | .hbm, ⟨12, _⟩ => ⟨S1024x128, .f32⟩
  | .hbm, ⟨13, _⟩ => ⟨S128x256, .f32⟩
  | .hbm, ⟨14, _⟩ => ⟨S128x1024, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S128x1024, .bf16⟩
  | .hbm, ⟨20, _⟩ => ⟨S128x1024, .f32⟩
  | .hbm, ⟨21, _⟩ => ⟨S128x1024, .f32⟩
  | .hbm, ⟨22, _⟩ => ⟨S128x1024, .bf16⟩
  | .hbm, ⟨23, _⟩ => ⟨S128x256, .bf16⟩
  | .hbm, ⟨24, _⟩ => ⟨S256x128, .bf16⟩
  | .hbm, ⟨25, _⟩ => ⟨S1x1, .f32⟩
  | .hbm, ⟨26, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x128, .bf16⟩
  | .local _ .vmem, ⟨3, _⟩ => ⟨S1024x128, .bf16⟩
  | .local _ .vmem, ⟨4, _⟩ => ⟨S128x256, .bf16⟩
  | .local _ .vmem, ⟨5, _⟩ => ⟨S256x128, .bf16⟩
  | .local _ .vmem, ⟨6, _⟩ => ⟨S128x1024, .bf16⟩
  | .local _ .vmem, ⟨7, _⟩ => ⟨S128x1024, .bf16⟩
  | .local _ .vmem, ⟨8, _⟩ => ⟨S1x1024, .f32⟩
  | .local _ .vmem, ⟨9, _⟩ => ⟨S1x1, .f32⟩
  | .local _ .vmem, ⟨10, _⟩ => ⟨S1x2048x1024, .f32⟩
  | .local _ .vmem, ⟨11, _⟩ => ⟨S1x2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S128x128_S128x128_1_0 : S128x128.Transposes [1, 0] S128x128
  transposes_S128x1024_S1024x128_1_0 : S128x1024.Transposes [1, 0] S1024x128
  transposes_S256x128_S128x256_1_0 : S256x128.Transposes [1, 0] S128x256
  transposes_S1024x128_S128x1024_1_0 : S1024x128.Transposes [1, 0] S128x1024
  bitsLt_bf16_f32 : FTy.bits .bf16 < FTy.bits .f32
  shapeCasts_S1_S1x1 : S1.ShapeCasts S1x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S2048x256_S2048 : S2048x256.Reduces [1] S2048
  shapeCasts_S2048_S2048x1 : S2048.ShapeCasts S2048x1
  broadcasts_S2048x1_S2048x256 : S2048x1.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  reduces_S2048x1024_S2048 : S2048x1024.Reduces [1] S2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S2048x1_S2048x1024 : S2048x1.Broadcasts S2048x1024
  shapeCasts_S2048x1024_S1x2048x1024 : S2048x1024.ShapeCasts S1x2048x1024
  dot_S256x128_S128x128_S256x128_1_0_0_1_n_n_wf : DotDims.WF S256x128 S128x128 S256x128 [1] [0] [0] [1] [] []
  dot_S2048x1024_S1024x128_S2048x128_1_0_0_1_n_n_wf : DotDims.WF S2048x1024 S1024x128 S2048x128 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .bf16 = 32 ∨ (Rect.block (s := S128x1024) S128x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .bf16 = 32 ∨ (Rect.block (s := S128x1024) S128x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x1024.size a ≤ S8x4096x1024.size a
  hwx0_9 : ∀ i : grid0.Coords, EltTy.bits .f32 = 32 ∨ (Rect.block (s := S8x4096x1024) S1x2048x1024.size (cc0_transform_9 i) (hinb0_9 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S128x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x2048x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S256x128 : Shape := ⟨2, ![256, 128]⟩
abbrev S128x1024 : Shape := ⟨2, ![128, 1024]⟩
abbrev S128x128 : Shape := ⟨2, ![128, 128]⟩
abbrev S1024x128 : Shape := ⟨2, ![1024, 128]⟩
abbrev S1x1024 : Shape := ⟨2, ![1, 1024]⟩
abbrev S1 : Shape := ⟨1, ![1]⟩
abbrev S8x4096x128 : Shape := ⟨3, ![8, 4096, 128]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x128, .f32⟩
  | .hbm, ⟨2, _⟩ => ⟨S128x1024, .f32⟩
  | .hbm, ⟨3, _⟩ => ⟨S128x128, .f32⟩
  | .hbm, ⟨4, _⟩ => ⟨S128x128, .f32⟩
  | .hbm, ⟨5, _⟩ => ⟨S1024x128, .f32⟩
  | .hbm, ⟨6, _⟩ => ⟨S1x1024, .f32⟩
  | .hbm, ⟨7, _⟩ => ⟨S1, .f32⟩
  | .hbm, ⟨8, _⟩ => ⟨S8x4096x128, .f32⟩
  | .hbm, ⟨9, _⟩ => ⟨S128x128, .f32⟩
  | .hbm, ⟨10, _⟩ => ⟨S256x128, .f32⟩
  | .hbm, ⟨11, _⟩ => ⟨S128x128, .f32⟩
  | .hbm, ⟨12, _⟩ => ⟨S256x128, .f32⟩
  | .hbm, ⟨13, _⟩ => ⟨S8x4096x256, .f32⟩
  | .hbm, ⟨14, _⟩ => ⟨S_, .f32⟩
  | .hbm, ⟨15, _⟩ => ⟨S8x4096x256, .f32⟩
  | .hbm, ⟨16, _⟩ => ⟨S8x4096x256, .f32⟩
  | .hbm, ⟨17, _⟩ => ⟨S_, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .f32⟩
  | .hbm, ⟨22, _⟩ => ⟨S8x4096x1, .f32⟩
  | .hbm, ⟨23, _⟩ => ⟨S8x4096x256, .f32⟩
  | .hbm, ⟨24, _⟩ => ⟨S8x4096x256, .f32⟩
  | .hbm, ⟨25, _⟩ => ⟨S8x4096x256, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x256, .f32⟩
  | .hbm, ⟨30, _⟩ => ⟨S8x4096x256, .f32⟩
  | .hbm, ⟨31, _⟩ => ⟨S8x4096x128, .f32⟩
  | .hbm, ⟨32, _⟩ => ⟨S8x4096x1024, .f32⟩
  | .hbm, ⟨33, _⟩ => ⟨S8x4096x1, .f32⟩
  | .hbm, ⟨34, _⟩ => ⟨S1x1x1, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  transposes_S128x128_S128x128_1_0 : S128x128.Transposes [1, 0] S128x128
  bcast_S_S8x4096x256 : S_.BroadcastsInDim S8x4096x256 (![] : Fin 0 → Fin S8x4096x256.rank)
  reducesTo_S8x4096x256_S8x4096_d2 : S8x4096x256.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x256_0_1_2 : S8x4096x1.BroadcastsInDim S8x4096x256 (![0, 1, 2] : Fin 3 → Fin S8x4096x256.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  dot_S8x4096x1024_S128x1024_S8x4096x128_2_1_01_0_n_n_wf : DotDims.WF S8x4096x1024 S128x1024 S8x4096x128 [2] [1] [0, 1] [0] [] []
  dot_S256x128_S128x128_S256x128_1_0_0_1_n_n_wf : DotDims.WF S256x128 S128x128 S256x128 [1] [0] [0] [1] [] []
  dot_S8x4096x128_S256x128_S8x4096x256_2_1_01_0_n_n_wf : DotDims.WF S8x4096x128 S256x128 S8x4096x256 [2] [1] [0, 1] [0] [] []
  dot_S8x4096x256_S256x128_S8x4096x128_2_0_01_1_n_n_wf : DotDims.WF S8x4096x256 S256x128 S8x4096x128 [2] [0] [0, 1] [1] [] []
  dot_S8x4096x128_S1024x128_S8x4096x1024_2_1_01_0_n_n_wf : DotDims.WF S8x4096x128 S1024x128 S8x4096x1024 [2] [1] [0, 1] [0] [] []
  dot_S8x4096x1024_S1x1024_S8x4096x1_2_1_01_0_n_n_wf : DotDims.WF S8x4096x1024 S1x1024 S8x4096x1 [2] [1] [0, 1] [0] [] []

variable [Facts₀]

def dot_S8x4096x1024_S128x1024_S8x4096x128_2_1_01_0_n_n : DotDims S8x4096x1024 S128x1024 S8x4096x128 where
  lhsContracting := [2]
  rhsContracting := [1]
  lhsNonContracting := [0, 1]
  rhsNonContracting := [0]
  lhsBatch := []
  rhsBatch := []
  wf := dot_S8x4096x1024_S128x1024_S8x4096x128_2_1_01_0_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S8x4096x128_S256x128_S8x4096x256_2_1_01_0_n_n : DotDims S8x4096x128 S256x128 S8x4096x256 where
  lhsContracting := [2]
  rhsContracting := [1]
  lhsNonContracting := [0, 1]
  rhsNonContracting := [0]
  lhsBatch := []
  rhsBatch := []
  wf := dot_S8x4096x128_S256x128_S8x4096x256_2_1_01_0_n_n_wf
def dot_S8x4096x256_S256x128_S8x4096x128_2_0_01_1_n_n : DotDims S8x4096x256 S256x128 S8x4096x128 where
  lhsContracting := [2]
  rhsContracting := [0]
  lhsNonContracting := [0, 1]
  rhsNonContracting := [1]
  lhsBatch := []
  rhsBatch := []
  wf := dot_S8x4096x256_S256x128_S8x4096x128_2_0_01_1_n_n_wf
def dot_S8x4096x128_S1024x128_S8x4096x1024_2_1_01_0_n_n : DotDims S8x4096x128 S1024x128 S8x4096x1024 where
  lhsContracting := [2]
  rhsContracting := [1]
  lhsNonContracting := [0, 1]
  rhsNonContracting := [0]
  lhsBatch := []
  rhsBatch := []
  wf := dot_S8x4096x128_S1024x128_S8x4096x1024_2_1_01_0_n_n_wf
def dot_S8x4096x1024_S1x1024_S8x4096x1_2_1_01_0_n_n : DotDims S8x4096x1024 S1x1024 S8x4096x1 where
  lhsContracting := [2]
  rhsContracting := [1]
  lhsNonContracting := [0, 1]
  rhsNonContracting := [0]
  lhsBatch := []
  rhsBatch := []
  wf := dot_S8x4096x1024_S1x1024_S8x4096x1_2_1_01_0_n_n_wf

class Facts : Prop extends Facts₀ where

variable [Facts]
-- ==== Proof.Spec.lean ====
/-
  Gated single-head cross attention over 256 key rows, one row of the input at a time, on the extended reals.

  For a row x in R^1024 (one position of one batch element):
    query   q_d = sum_m x_m * wq_{m,d}                        (d < 128)
    score   s_p = (sum_d q_d * kT_{d,p}) * scale              (p < 256; scale is the f32 word nearest 1/sqrt 128, the same
                                                               word in both programs, never evaluated)
    weight  a_p = exp(s_p - max_p s_p) / sum_p exp(s_p - max_p s_p)   (the softmax over the 256 keys)
    context c_d = sum_p a_p * v_{p,d}
    project o_m = sum_d c_d * wo_{d,m}                        (m < 1024)
    gate    g   = 1 / (1 + exp(-(sum_m x_m * gw_m + gb)))
    result  y_m = g * o_m.
  The keys and values are themselves projections of a table: kT_{d,p} = sum_j pe_{p,j} * Wk_{d,j} and
  v_{p,d} = sum_j pe_{p,j} * Wv_{d,j}.

  The kernel computes the two long projections (query, project) by splitting each operand a into a leading part and the
  remainder a - (leading part), and summing three of the four cross products; on exact numbers the leading part is a
  itself and the remainder is a - a, so the variant below carries the remainders as separate arguments.
-/
import Idealize.ShloMosaic.PureOps.Ideal
import Idealize.ShloMosaic.Lib.ValueIdx

noncomputable section

namespace Cert.Attn

open Idealize.ShloMosaic Idealize.ShloMosaic.ValueIdx

/-- An extended real that is a real number. -/
def IsReal (x : EReal) : Prop := ∃ r : ℝ, x = (r : EReal)

/-- The softmax temperature, as both programs spell it. -/
def scale : EReal := Ideal.ofBits .f32 0x3DB504F3#32

/-- The value a row maximum starts from: the f32 word of minus infinity. -/
def negInf : EReal := Ideal.ofBits .f32 0xFF800000#32

def query (x : Fin 1024 → EReal) (wq : Fin 1024 → Fin 128 → EReal) (d : Fin 128) : EReal :=
  ∑ m : Fin 1024, x m * wq m d

def score (q : Fin 128 → EReal) (kT : Fin 128 → Fin 256 → EReal) (p : Fin 256) : EReal :=
  (∑ d : Fin 128, q d * kT d p) * scale

def rowMax (s : Fin 256 → EReal) : EReal := (Finset.univ : Finset (Fin 256)).fold max negInf s

def expo (s : Fin 256 → EReal) (p : Fin 256) : EReal := Ideal.exp (s p - rowMax s)

def denom (s : Fin 256 → EReal) : EReal := ∑ p : Fin 256, expo s p

def weight (s : Fin 256 → EReal) (p : Fin 256) : EReal := Ideal.div (expo s p) (denom s)

def context (a : Fin 256 → EReal) (v : Fin 256 → Fin 128 → EReal) (d : Fin 128) : EReal :=
  ∑ p : Fin 256, a p * v p d

def project (c : Fin 128 → EReal) (wo : Fin 128 → Fin 1024 → EReal) (m : Fin 1024) : EReal :=
  ∑ d : Fin 128, c d * wo d m

def gate (x gw : Fin 1024 → EReal) (gb : EReal) : EReal := Ideal.logistic ((∑ m : Fin 1024, x m * gw m) + gb)

/-- One row of the result. -/
def rowOut (x : Fin 1024 → EReal) (wq : Fin 1024 → Fin 128 → EReal) (kT : Fin 128 → Fin 256 → EReal)
    (v : Fin 256 → Fin 128 → EReal) (wo : Fin 128 → Fin 1024 → EReal) (gw : Fin 1024 → EReal) (gb : EReal)
    (m : Fin 1024) : EReal :=
  gate x gw gb * project (context (weight (score (query x wq) kT)) v) wo m

/-! ## The same row with each long projection split in three -/

/-- The query with the row's remainder and the weights' remainder carried apart. -/
def querySplit (x xlo : Fin 1024 → EReal) (wq wqlo : Fin 1024 → Fin 128 → EReal) (d : Fin 128) : EReal :=
  (∑ m : Fin 1024, x m * wq m d + ∑ m : Fin 1024, x m * wqlo m d) + ∑ m : Fin 1024, xlo m * wq m d

/-- The output projection with the context's remainder and the weights' remainder carried apart. -/
def projectSplit (c clo : Fin 128 → EReal) (wo wolo : Fin 128 → Fin 1024 → EReal) (m : Fin 1024) : EReal :=
  (∑ d : Fin 128, c d * wo d m + ∑ d : Fin 128, c d * wolo d m) + ∑ d : Fin 128, clo d * wo d m

/-- The context of the split row: the row's remainder is x - x. -/
def contextSplit (x : Fin 1024 → EReal) (wq wqlo : Fin 1024 → Fin 128 → EReal) (kT : Fin 128 → Fin 256 → EReal)
    (v : Fin 256 → Fin 128 → EReal) (d : Fin 128) : EReal :=
  context (weight (score (querySplit x (fun m => x m - x m) wq wqlo) kT)) v d

/-- One row as the kernel computes it: the remainders of the row and of the context are a - a. -/
def rowOutSplit (x : Fin 1024 → EReal) (wq wqlo : Fin 1024 → Fin 128 → EReal) (kT : Fin 128 → Fin 256 → EReal)
    (v : Fin 256 → Fin 128 → EReal) (wo wolo : Fin 128 → Fin 1024 → EReal) (gw : Fin 1024 → EReal) (gb : EReal)
    (m : Fin 1024) : EReal :=
  gate x gw gb * projectSplit (contextSplit x wq wqlo kT v)
    (fun d => contextSplit x wq wqlo kT v d - contextSplit x wq wqlo kT v d) wo wolo m

/-! ## The whole array -/

/-- A key or value entry: the table's row p against row d of the weights. -/
def keyval (pe : (⟨2, ![256, 128]⟩ : Shape).Idx → EReal) (W : (⟨2, ![128, 128]⟩ : Shape).Idx → EReal)
    (p : Fin 256) (d : Fin 128) : EReal :=
  ∑ j : Fin 128, pe (ix2 p j) * W (ix2 d j)

/-- The result at batch element b, position s, feature m. -/
def Gat (x : (⟨3, ![8, 4096, 1024]⟩ : Shape).Idx → EReal) (pe : (⟨2, ![256, 128]⟩ : Shape).Idx → EReal)
    (Wq : (⟨2, ![128, 1024]⟩ : Shape).Idx → EReal) (Wk Wv : (⟨2, ![128, 128]⟩ : Shape).Idx → EReal)
    (Wo : (⟨2, ![1024, 128]⟩ : Shape).Idx → EReal) (gw : (⟨2, ![1, 1024]⟩ : Shape).Idx → EReal)
    (gb : (⟨1, ![1]⟩ : Shape).Idx → EReal) (b : Fin 8) (s : Fin 4096) (m : Fin 1024) : EReal :=
  rowOut (fun m' => x (ix3 b s m')) (fun m' d => Wq (ix2 d m')) (fun d p => keyval pe Wk p d)
    (fun p d => keyval pe Wv p d) (fun d m' => Wo (ix2 m' d)) (fun m' => gw (ix2 (0 : Fin 1) m')) (gb (ix1 (0 : Fin 1))) m

/-- The whole result as one function of the eight argument arrays. -/
def G (x : (⟨3, ![8, 4096, 1024]⟩ : Shape).Idx → EReal) (pe : (⟨2, ![256, 128]⟩ : Shape).Idx → EReal)
    (Wq : (⟨2, ![128, 1024]⟩ : Shape).Idx → EReal) (Wk Wv : (⟨2, ![128, 128]⟩ : Shape).Idx → EReal)
    (Wo : (⟨2, ![1024, 128]⟩ : Shape).Idx → EReal) (gw : (⟨2, ![1, 1024]⟩ : Shape).Idx → EReal)
    (gb : (⟨1, ![1]⟩ : Shape).Idx → EReal) : (⟨3, ![8, 4096, 1024]⟩ : Shape).Idx → EReal :=
  fun i => Gat x pe Wq Wk Wv Wo gw gb (i 0) (i 1) (i 2)

theorem G_ix3 (x : (⟨3, ![8, 4096, 1024]⟩ : Shape).Idx → EReal) (pe : (⟨2, ![256, 128]⟩ : Shape).Idx → EReal)
    (Wq : (⟨2, ![128, 1024]⟩ : Shape).Idx → EReal) (Wk Wv : (⟨2, ![128, 128]⟩ : Shape).Idx → EReal)
    (Wo : (⟨2, ![1024, 128]⟩ : Shape).Idx → EReal) (gw : (⟨2, ![1, 1024]⟩ : Shape).Idx → EReal)
    (gb : (⟨1, ![1]⟩ : Shape).Idx → EReal) (b : Fin 8) (s : Fin 4096) (m : Fin 1024) :
    G x pe Wq Wk Wv Wo gw gb (ix3 b s m) = Gat x pe Wq Wk Wv Wo gw gb b s m := rfl

end Cert.Attn

end
-- ==== Proof.KernelOps.lean ====
/-
  The kernel's vector operations read at an index: a matrix product into a zero accumulator is the sum over the
  contracted coordinate; a reduction along the second axis is the sum (or the running maximum) over that row; the layout
  operations between a row vector, a column and a matrix move no value.
-/
import proofs.«414104_j8186207666960_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Attn

open Idealize.ShloMosaic Idealize.ShloMosaic.ValueIdx Cert.KernelIdeal Cert.KernelIdeal.Facts₀ Cert.KernelIdeal.Facts

/-! ## The four matrix products -/

/-- The left operand's index at output index `i` and contraction index `q`: its row is `i`'s row. -/
theorem lhs_1024_128_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- … and its column is the contracted coordinate. -/
theorem lhs_1024_128_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
/-- The right operand's row is the contracted coordinate -/
theorem rhs_1024_128_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
/-- … and its column is `i`'s column. -/
theorem rhs_1024_128_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

theorem mm_1024_128 {φ₁ φ₂ : FTy} (a : FVec Ideal S2048x1024 φ₁) (b : FVec Ideal S1024x128 φ₂) (r : Fin 2048) (d : Fin 128) :
    matmul dot_S2048x1024_S1024x128_S2048x128_1_0_0_1_n_n none a b (constant S2048x128 .f32 0x00000000#32) (ix2 r d)
      = ∑ k : Fin 1024, a (ix2 r k) * b (ix2 k d) := by
  simp only [matmul]
  rw [Ideal.matmul_constant_zero_apply, ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 r d) ((ValueIdx.contrEquiv1 dot_S2048x1024_S1024x128_S2048x128_1_0_0_1_n_n 1024 rfl rfl).symm k) = ix2 r k := funext fun ax => Fin.ext (by
    match ax with
    | ⟨0, _⟩ => exact lhs_1024_128_0 _ _
    | ⟨1, _⟩ => exact (lhs_1024_128_1 _ _).trans hk)
  have er : dot_S2048x1024_S1024x128_S2048x128_1_0_0_1_n_n.rhsIdx (ix2 r d) ((ValueIdx.contrEquiv1 dot_S2048x1024_S1024x128_S2048x128_1_0_0_1_n_n 1024 rfl rfl).symm k) = ix2 k d := funext fun ax => Fin.ext (by
    match ax with
    | ⟨0, _⟩ => exact (rhs_1024_128_0 _ _).trans hk
    | ⟨1, _⟩ => exact rhs_1024_128_1 _ _)
  rw [el, er]

/-- The left operand's index at output index `i` and contraction index `q`: its row is `i`'s row. -/
theorem lhs_128_256_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
/-- … and its column is the contracted coordinate. -/
theorem lhs_128_256_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
/-- The right operand's row is the contracted coordinate -/
theorem rhs_128_256_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
/-- … and its column is `i`'s column. -/
theorem rhs_128_256_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

theorem mm_128_256 {φ₁ φ₂ : FTy} (a : FVec Ideal S2048x128 φ₁) (b : FVec Ideal S128x256 φ₂) (r : Fin 2048) (p : Fin 256) :
    matmul dot_S2048x128_S128x256_S2048x256_1_0_0_1_n_n none a b (constant S2048x256 .f32 0x00000000#32) (ix2 r p)
      = ∑ k : Fin 128, a (ix2 r k) * b (ix2 k p) := by
  simp only [matmul]
  rw [Ideal.matmul_constant_zero_apply, ← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 r p) ((ValueIdx.contrEquiv1 dot_S2048x128_S128x256_S2048x256_1_0_0_1_n_n 128 rfl rfl).symm k) = ix2 r k := funext fun ax => Fin.ext (by
    match ax with
    | ⟨0, _⟩ => exact lhs_128_256_0 _ _
    | ⟨1, _⟩ => exact (lhs_128_256_1 _ _).trans hk)
  have er : dot_S2048x128_S128x256_S2048x256_1_0_0_1_n_n.rhsIdx (ix2 r p) ((ValueIdx.contrEquiv1 dot_S2048x128_S128x256_S2048x256_1_0_0_1_n_n 128 rfl rfl).symm k) = ix2 k p := funext fun ax => Fin.ext (by
    match ax with
    | ⟨0, _⟩ => exact (rhs_128_256_0 _ _).trans hk
    | ⟨1, _⟩ => exact rhs_128_256_1 _ _)
  rw [el, er]

/-- The left operand's index at output index `i` and contraction index `q`: its row is `i`'s row. -/
theorem lhs_256_128_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- … and its column is the contracted coordinate. -/
theorem lhs_256_128_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
/-- The right operand's row is the contracted coordinate -/
theorem rhs_256_128_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
/-- … and its column is `i`'s column. -/
theorem rhs_256_128_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

theorem mm_256_128 {φ₁ φ₂ : FTy} (a : FVec Ideal S2048x256 φ₁) (b : FVec Ideal S256x128 φ₂) (r : Fin 2048) (d : Fin 128) :
    matmul dot_S2048x256_S256x128_S2048x128_1_0_0_1_n_n none a b (constant S2048x128 .f32 0x00000000#32) (ix2 r d)
      = ∑ k : Fin 256, a (ix2 r k) * b (ix2 k d) := by
  simp only [matmul]
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 r d) ((ValueIdx.contrEquiv1 dot_S2048x256_S256x128_S2048x128_1_0_0_1_n_n 256 rfl rfl).symm k) = ix2 r k := funext fun ax => Fin.ext (by
    match ax with
    | ⟨0, _⟩ => exact lhs_256_128_0 _ _
    | ⟨1, _⟩ => exact (lhs_256_128_1 _ _).trans hk)
  have er : dot_S2048x256_S256x128_S2048x128_1_0_0_1_n_n.rhsIdx (ix2 r d) ((ValueIdx.contrEquiv1 dot_S2048x256_S256x128_S2048x128_1_0_0_1_n_n 256 rfl rfl).symm k) = ix2 k d := funext fun ax => Fin.ext (by
    match ax with
    | ⟨0, _⟩ => exact (rhs_256_128_0 _ _).trans hk
    | ⟨1, _⟩ => exact rhs_256_128_1 _ _)
  rw [el, er]

/-- The left operand's index at output index `i` and contraction index `q`: its row is `i`'s row. -/
theorem lhs_128_1024_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
/-- … and its column is the contracted coordinate. -/
theorem lhs_128_1024_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
/-- The right operand's row is the contracted coordinate -/
theorem rhs_128_1024_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
/-- … and its column is `i`'s column. -/
theorem rhs_128_1024_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl

theorem mm_128_1024 {φ₁ φ₂ : FTy} (a : FVec Ideal S2048x128 φ₁) (b : FVec Ideal S128x1024 φ₂) (r : Fin 2048) (j : Fin 1024) :
    matmul dot_S2048x128_S128x1024_S2048x1024_1_0_0_1_n_n none a b (constant S2048x1024 .f32 0x00000000#32) (ix2 r j)
      = ∑ k : Fin 128, a (ix2 r k) * b (ix2 k j) := by
  simp only [matmul]
  rw [Ideal.matmul_constant_zero_apply, ← Equiv.sum_comp (ValueIdx.contrEquiv1 dot_S2048x128_S128x1024_S2048x1024_1_0_0_1_n_n 128 rfl rfl).symm]
  refine Finset.sum_congr rfl fun k _ => ?_
  have hk := ValueIdx.contrEquiv1_symm_val dot_S2048x128_S128x1024_S2048x1024_1_0_0_1_n_n 128 rfl rfl k
  have el : dot_S2048x128_S128x1024_S2048x1024_1_0_0_1_n_n.lhsIdx (ix2 r j) ((ValueIdx.contrEquiv1 dot_S2048x128_S128x1024_S2048x1024_1_0_0_1_n_n 128 rfl rfl).symm k) = ix2 r k := funext fun ax => Fin.ext (by
    match ax with
    | ⟨0, _⟩ => exact lhs_128_1024_0 _ _
    | ⟨1, _⟩ => exact (lhs_128_1024_1 _ _).trans hk)
  have er : dot_S2048x128_S128x1024_S2048x1024_1_0_0_1_n_n.rhsIdx (ix2 r j) ((ValueIdx.contrEquiv1 dot_S2048x128_S128x1024_S2048x1024_1_0_0_1_n_n 128 rfl rfl).symm k) = ix2 k j := funext fun ax => Fin.ext (by
    match ax with
    | ⟨0, _⟩ => exact (rhs_128_1024_0 _ _).trans hk
    | ⟨1, _⟩ => exact rhs_128_1024_1 _ _)
  rw [el, er]

/-! ## Reductions along a row -/

/-- The index a reduction along the second axis inserts the coordinate `k` into at row `r` is `(r, k)`. -/
theorem lift_256 (r : Fin 2048) (k : Fin 256) : reduces_S2048x256_S2048.lift (ix1 r) k = ix2 r k := by
  funext ax
  match ax with
  | ⟨0, _⟩ => rfl
  | ⟨1, _⟩ => rfl

theorem lift_1024 (r : Fin 2048) (k : Fin 1024) : reduces_S2048x1024_S2048.lift (ix1 r) k = ix2 r k := by
  funext ax
  match ax with
  | ⟨0, _⟩ => rfl
  | ⟨1, _⟩ => rfl

theorem rowmax_256 (v : FVec Ideal S2048x256 .f32) (r : Fin 2048) :
    multiReduction .maximumf [1] S2048 v 0xFF800000#32 reduces_S2048x256_S2048 (.inl rfl) rfl (ix1 r)
      = (Finset.univ : Finset (Fin 256)).fold max (Ideal.ofBits .f32 0xFF800000#32) (fun p => v (ix2 r p)) := by
  refine (Ideal.multiReduction_maximumf_single v _ reduces_S2048x256_S2048 (.inl rfl) rfl (ix1 r)).trans ?_
  have hf : v ∘ reduces_S2048x256_S2048.lift (ix1 r) = fun p : Fin 256 => v (ix2 r p) :=
    funext fun p => congrArg v (lift_256 r p)
  rw [hf]
  rfl

theorem rowsum_256 (v : FVec Ideal S2048x256 .f32) (r : Fin 2048) :
    multiReduction .add [1] S2048 v 0x00000000#32 reduces_S2048x256_S2048 (.inl rfl) rfl (ix1 r)
      = ∑ p : Fin 256, v (ix2 r p) := by
  refine (Ideal.multiReduction_add_single v _ reduces_S2048x256_S2048 (.inl rfl) rfl (ix1 r)).trans ?_
  exact Finset.sum_congr rfl fun k _ => congrArg v (lift_256 r k)

theorem rowsum_1024 (v : FVec Ideal S2048x1024 .f32) (r : Fin 2048) :
    multiReduction .add [1] S2048 v 0x00000000#32 reduces_S2048x1024_S2048 (.inl rfl) rfl (ix1 r)
      = ∑ k : Fin 1024, v (ix2 r k) := by
  refine (Ideal.multiReduction_add_single v _ reduces_S2048x1024_S2048 (.inl rfl) rfl (ix1 r)).trans ?_
  exact Finset.sum_congr rfl fun k _ => congrArg v (lift_1024 r k)

/-! ## Layout operations -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem col_of_vec {α : Type} (v : S2048.Idx → α) (r : Fin 2048) (z : Fin 1) :
    shapeCast S2048x1 v shapeCasts_S2048_S2048x1 (ix2 r z) = v (ix1 r) :=
  shapeCast_a_a1_apply v shapeCasts_S2048_S2048x1 r z

theorem bcast_col_256 {α : Type} (v : S2048x1.Idx → α) (r : Fin 2048) (p : Fin 256) :
    broadcastTo S2048x256 v broadcasts_S2048x1_S2048x256 (ix2 r p) = v (ix2 r (0 : Fin 1)) :=
  broadcastTo_a1_ab_apply v broadcasts_S2048x1_S2048x256 r p

theorem bcast_col_1024 {α : Type} (v : S2048x1.Idx → α) (r : Fin 2048) (j : Fin 1024) :
    broadcastTo S2048x1024 v broadcasts_S2048x1_S2048x1024 (ix2 r j) = v (ix2 r (0 : Fin 1)) :=
  broadcastTo_a1_ab_apply v broadcasts_S2048x1_S2048x1024 r j

theorem bcast_row_1024 {α : Type} (v : S1x1024.Idx → α) (r : Fin 2048) (j : Fin 1024) :
    broadcastTo S2048x1024 v broadcasts_S1x1024_S2048x1024 (ix2 r j) = v (ix2 (0 : Fin 1) j) :=
  broadcastTo_1b_ab_apply v broadcasts_S1x1024_S2048x1024 r j

theorem rows_of_block {α : Type} (v : S1x2048x1024.Idx → α) (r : Fin 2048) (j : Fin 1024) :
    shapeCast S2048x1024 v shapeCasts_S1x2048x1024_S2048x1024 (ix2 r j) = v (ix3 (0 : Fin 1) r j) :=
  shapeCast_1ab_ab_apply v shapeCasts_S1x2048x1024_S2048x1024 r j

theorem block_of_rows {α : Type} (v : S2048x1024.Idx → α) (r : Fin 2048) (j : Fin 1024) :
    shapeCast S1x2048x1024 v shapeCasts_S2048x1024_S1x2048x1024 (ix3 (0 : Fin 1) r j) = v (ix2 r j) :=
  shapeCast_ab_1ab_apply v shapeCasts_S2048x1024_S1x2048x1024 (0 : Fin 1) r j

theorem extract_11 (v : Vec Ideal S1x1 .f32) :
    extractAt ![0, 0] v inpos_S1x1_p0_0 = v (ix2 (0 : Fin 1) (0 : Fin 1)) := by
  unfold extractAt
  refine congrArg v (funext fun ax => ?_)
  match ax with
  | ⟨0, _⟩ => rfl
  | ⟨1, _⟩ => rfl

end Cert.Attn

end
-- ==== Proof.Pay.lean ====
/-
  The kernel body's one store, read at an index of its block: row r of what it writes is the split row of the
  specification, of row r of the input block and of the eight resident operands.

  The body is cut into the stages of the mathematics, each a whole-vector function, and each stage is read at an index
  (r, .): rows of the block; the query (three products); the scores; the softmax weights (row maximum, exponentials, row
  sum, quotient); the context; the output projection (three products); the gate (a row's inner product with the gate
  weights, plus the bias, through the logistic function); the product of gate and projection.
-/
import proofs.«414104_j8186207666960_3_alg».proof.Proof.Spec
import proofs.«414104_j8186207666960_3_alg».proof.Proof.KernelOps
import proofs.«414104_j8186207666960_3_alg».proof.Proof.Gen.KernelIdeal.Frame

noncomputable section

namespace Cert.Attn

open Idealize.ShloMosaic Idealize.ShloMosaic.ValueIdx Cert.KernelIdeal Cert.KernelIdeal.Facts₀ Cert.KernelIdeal.Facts

/-! ## The stages, as whole vectors -/

/-- The query rows: the block's rows against the leading weights, the same rows against the weights' remainder, and the
    rows' remainder X - X against the leading weights. -/
def queryV (X : FVec Ideal S2048x1024 .f32) (w1 w2 : FVec Ideal S1024x128 .bf16) : FVec Ideal S2048x128 .f32 :=
  addf (addf
      (matmul dot_S2048x1024_S1024x128_S2048x128_1_0_0_1_n_n none (truncf .bf16 X bitsLt_bf16_f32)
        (shapeCast S1024x128 w1 shapeCasts_S1024x128_S1024x128) (constant S2048x128 .f32 0x00000000#32))
      (matmul dot_S2048x1024_S1024x128_S2048x128_1_0_0_1_n_n none (truncf .bf16 X bitsLt_bf16_f32)
        (shapeCast S1024x128 w2 shapeCasts_S1024x128_S1024x128) (constant S2048x128 .f32 0x00000000#32)))
    (matmul dot_S2048x1024_S1024x128_S2048x128_1_0_0_1_n_n none (truncf .bf16 (subf X X) bitsLt_bf16_f32)
      (shapeCast S1024x128 w1 shapeCasts_S1024x128_S1024x128) (constant S2048x128 .f32 0x00000000#32))

/-- The scores: query rows against the transposed keys, times the temperature. -/
def scoreV (Qv : FVec Ideal S2048x128 .f32) (k3 : FVec Ideal S128x256 .bf16) : FVec Ideal S2048x256 .f32 :=
  mulf (matmul dot_S2048x128_S128x256_S2048x256_1_0_0_1_n_n none (truncf .bf16 Qv bitsLt_bf16_f32)
      (shapeCast S128x256 k3 shapeCasts_S128x256_S128x256) (constant S2048x256 .f32 0x00000000#32))
    (broadcast S2048x256 (Scalar.ofBits .f32 0x3DB504F3#32))

/-- Each row's maximum, spread along the row. -/
def maxV (Sc : FVec Ideal S2048x256 .f32) : FVec Ideal S2048x256 .f32 :=
  broadcastTo S2048x256 (shapeCast S2048x1
    (multiReduction .maximumf [1] S2048 Sc 0xFF800000#32 reduces_S2048x256_S2048 (.inl rfl) rfl) shapeCasts_S2048_S2048x1)
    broadcasts_S2048x1_S2048x256

def expoV (Sc : FVec Ideal S2048x256 .f32) : FVec Ideal S2048x256 .f32 := exp (subf Sc (maxV Sc))

/-- The softmax weights: each exponential over its row's sum. -/
def weightV (Sc : FVec Ideal S2048x256 .f32) : FVec Ideal S2048x256 .f32 :=
  divf (expoV Sc) (broadcastTo S2048x256 (shapeCast S2048x1
    (multiReduction .add [1] S2048 (expoV Sc) 0x00000000#32 reduces_S2048x256_S2048 (.inl rfl) rfl) shapeCasts_S2048_S2048x1)
    broadcasts_S2048x1_S2048x256)

def contextV (A : FVec Ideal S2048x256 .f32) (v4 : FVec Ideal S256x128 .bf16) : FVec Ideal S2048x128 .f32 :=
  matmul dot_S2048x256_S256x128_S2048x128_1_0_0_1_n_n none (truncf .bf16 A bitsLt_bf16_f32)
    (shapeCast S256x128 v4 shapeCasts_S256x128_S256x128) (constant S2048x128 .f32 0x00000000#32)

/-- The output projection of a context C whose remainder Clo is given: three products. -/
def projectV (C Clo : FVec Ideal S2048x128 .bf16) (w5 w6 : FVec Ideal S128x1024 .bf16) : FVec Ideal S2048x1024 .f32 :=
  addf (addf
      (matmul dot_S2048x128_S128x1024_S2048x1024_1_0_0_1_n_n none C
        (shapeCast S128x1024 w5 shapeCasts_S128x1024_S128x1024) (constant S2048x1024 .f32 0x00000000#32))
      (matmul dot_S2048x128_S128x1024_S2048x1024_1_0_0_1_n_n none C
        (shapeCast S128x1024 w6 shapeCasts_S128x1024_S128x1024) (constant S2048x1024 .f32 0x00000000#32)))
    (matmul dot_S2048x128_S128x1024_S2048x1024_1_0_0_1_n_n none Clo
      (shapeCast S128x1024 w5 shapeCasts_S128x1024_S128x1024) (constant S2048x1024 .f32 0x00000000#32))

/-- The gate, one value a row. -/
def gateV (X : FVec Ideal S2048x1024 .f32) (g7 : FVec Ideal S1x1024 .f32) (b8 : Vec Ideal S1x1 .f32) : FVec Ideal S2048x1 .f32 :=
  logistic (addf
    (shapeCast S2048x1 (multiReduction .add [1] S2048 (mulf X (broadcastTo S2048x1024 g7 broadcasts_S1x1024_S2048x1024))
      0x00000000#32 reduces_S2048x1024_S2048 (.inl rfl) rfl) shapeCasts_S2048_S2048x1)
    (broadcast S2048x1 (extractAt ![0, 0] b8 inpos_S1x1_p0_0)))

/-- The stored block from the gate and the projection. -/
def storedV (Gt : FVec Ideal S2048x1 .f32) (O : FVec Ideal S2048x1024 .f32) : FVec Ideal S1x2048x1024 .f32 :=
  shapeCast S1x2048x1024 (mulf (broadcastTo S2048x1024 Gt broadcasts_S2048x1_S2048x1024) O) shapeCasts_S2048x1024_S1x2048x1024

/-! ## The printed payloads are these stages composed -/

theorem pay2_stage (x0 : Vec Ideal S1x2048x1024 .f32) :
    Gen.k0_pay2 (F := Ideal) x0 = shapeCast S2048x1024 x0 shapeCasts_S1x2048x1024_S2048x1024 := rfl

theorem pay3_stage (x0 : Vec Ideal S1x2048x1024 .f32) (x1 x2 : Vec Ideal S1024x128 .bf16) (x3 : Vec Ideal S128x256 .bf16)
    (x4 : Vec Ideal S256x128 .bf16) :
    Gen.k0_pay3 (F := Ideal) x0 x1 x2 x3 x4 = contextV (weightV (scoreV (queryV (Gen.k0_pay2 x0) x1 x2) x3)) x4 := rfl

theorem pay1_stage (v1 : FVec Ideal S2048x1024 .f32) (v34 v37 : FVec Ideal S2048x128 .bf16) (v38 v40 : Vec Ideal S128x1024 .bf16)
    (v47 : Vec Ideal S1x1024 .f32) (v52 : Vec Ideal S1x1 .f32) :
    Gen.k0_pay1 (F := Ideal) v1 v34 v37 v38 v40 v47 v52 = storedV (gateV v1 v47 v52) (projectV v34 v37 v38 v40) := rfl

/-! ## Each stage read at an index -/

theorem rows_at (x0 : Vec Ideal S1x2048x1024 .f32) (r : Fin 2048) (j : Fin 1024) :
    Gen.k0_pay2 (F := Ideal) x0 (ix2 r j) = x0 (ix3 (0 : Fin 1) r j) := by
  rw [pay2_stage]; exact rows_of_block x0 r j

theorem queryV_at (X : FVec Ideal S2048x1024 .f32) (w1 w2 : FVec Ideal S1024x128 .bf16) (r : Fin 2048) (d : Fin 128) :
    queryV X w1 w2 (ix2 r d) = querySplit (fun j => X (ix2 r j)) (fun j => X (ix2 r j) - X (ix2 r j))
      (fun j d => w1 (ix2 j d)) (fun j d => w2 (ix2 j d)) d := by
  unfold queryV querySplit
  rw [addf_apply, addf_apply, mm_1024_128, mm_1024_128, mm_1024_128]
  simp only [shapeCast_self]
  rfl

theorem scoreV_at (Qv : FVec Ideal S2048x128 .f32) (k3 : FVec Ideal S128x256 .bf16) (r : Fin 2048) (p : Fin 256) :
    scoreV Qv k3 (ix2 r p) = score (fun d => Qv (ix2 r d)) (fun d p => k3 (ix2 d p)) p := by
  unfold scoreV score scale
  rw [mulf_apply, mm_128_256]
  simp only [shapeCast_self]
  rfl

theorem maxV_at (Sc : FVec Ideal S2048x256 .f32) (r : Fin 2048) (p : Fin 256) :
    maxV Sc (ix2 r p) = rowMax (fun p => Sc (ix2 r p)) := by
  unfold maxV rowMax negInf
  rw [bcast_col_256, col_of_vec, rowmax_256]

theorem expoV_at (Sc : FVec Ideal S2048x256 .f32) (r : Fin 2048) (p : Fin 256) :
    expoV Sc (ix2 r p) = expo (fun p => Sc (ix2 r p)) p := by
  unfold expoV expo
  show Ideal.exp (Sc (ix2 r p) - maxV Sc (ix2 r p)) = _
  rw [maxV_at]

theorem weightV_at (Sc : FVec Ideal S2048x256 .f32) (r : Fin 2048) (p : Fin 256) :
    weightV Sc (ix2 r p) = weight (fun p => Sc (ix2 r p)) p := by
  unfold weightV weight denom
  rw [divf_apply, bcast_col_256, col_of_vec, rowsum_256, expoV_at]
  simp only [expoV_at]

theorem contextV_at (A : FVec Ideal S2048x256 .f32) (v4 : FVec Ideal S256x128 .bf16) (r : Fin 2048) (d : Fin 128) :
    contextV A v4 (ix2 r d) = context (fun p => A (ix2 r p)) (fun p d => v4 (ix2 p d)) d := by
  unfold contextV context
  rw [mm_256_128]
  simp only [shapeCast_self]
  rfl

theorem projectV_at (C Clo : FVec Ideal S2048x128 .bf16) (w5 w6 : FVec Ideal S128x1024 .bf16) (r : Fin 2048) (j : Fin 1024) :
    projectV C Clo w5 w6 (ix2 r j) = projectSplit (fun d => C (ix2 r d)) (fun d => Clo (ix2 r d))
      (fun d j => w5 (ix2 d j)) (fun d j => w6 (ix2 d j)) j := by
  unfold projectV projectSplit
  rw [addf_apply, addf_apply, mm_128_1024, mm_128_1024, mm_128_1024]
  simp only [shapeCast_self]

theorem gateV_at (X : FVec Ideal S2048x1024 .f32) (g7 : FVec Ideal S1x1024 .f32) (b8 : Vec Ideal S1x1 .f32) (r : Fin 2048) :
    gateV X g7 b8 (ix2 r (0 : Fin 1)) = gate (fun j => X (ix2 r j)) (fun j => g7 (ix2 (0 : Fin 1) j)) (b8 (ix2 (0 : Fin 1) (0 : Fin 1))) := by
  unfold gateV gate
  refine congrArg Ideal.logistic ?_
  rw [addf_apply, col_of_vec, rowsum_1024, broadcast_apply, extract_11]
  simp only [mulf_apply, bcast_row_1024]

theorem storedV_at (Gt : FVec Ideal S2048x1 .f32) (O : FVec Ideal S2048x1024 .f32) (r : Fin 2048) (j : Fin 1024) :
    storedV Gt O (ix3 (0 : Fin 1) r j) = Gt (ix2 r (0 : Fin 1)) * O (ix2 r j) := by
  unfold storedV
  rw [block_of_rows, mulf_apply, bcast_col_1024]

/-! ## The context and the stored block at an index -/

theorem ctx_at (x0 : Vec Ideal S1x2048x1024 .f32) (x1 x2 : Vec Ideal S1024x128 .bf16) (x3 : Vec Ideal S128x256 .bf16)
    (x4 : Vec Ideal S256x128 .bf16) (r : Fin 2048) (d : Fin 128) :
    Gen.k0_pay3 (F := Ideal) x0 x1 x2 x3 x4 (ix2 r d)
      = contextSplit (fun j => x0 (ix3 (0 : Fin 1) r j)) (fun j d => x1 (ix2 j d)) (fun j d => x2 (ix2 j d))
          (fun d p => x3 (ix2 d p)) (fun p d => x4 (ix2 p d)) d := by
  rw [pay3_stage, contextV_at]
  unfold contextSplit
  simp only [weightV_at, scoreV_at, queryV_at, rows_at]

theorem hz3 : (![0, 0, 0] : Fin 3 → Nat) = fun _ => 0 := funext fun a => by fin_cases a <;> rfl
theorem hz2 : (![0, 0] : Fin 2 → Nat) = fun _ => 0 := funext fun a => by fin_cases a <;> rfl

/-- Row r of the block the body stores is the split row of the specification. -/
theorem out_at (x0 : Vec Ideal S1x2048x1024 .f32) (x1 x2 : Vec Ideal S1024x128 .bf16) (x3 : Vec Ideal S128x256 .bf16)
    (x4 : Vec Ideal S256x128 .bf16) (x5 x6 : Vec Ideal S128x1024 .bf16) (x7 : Vec Ideal S1x1024 .f32) (x8 : Vec Ideal S1x1 .f32)
    (r : Fin 2048) (j : Fin 1024) :
    Gen.out0_9 x0 x1 x2 x3 x4 x5 x6 x7 x8 (ix3 (0 : Fin 1) r j)
      = rowOutSplit (fun j => x0 (ix3 (0 : Fin 1) r j)) (fun j d => x1 (ix2 j d)) (fun j d => x2 (ix2 j d))
          (fun d p => x3 (ix2 d p)) (fun p d => x4 (ix2 p d)) (fun d j => x5 (ix2 d j)) (fun d j => x6 (ix2 d j))
          (fun j => x7 (ix2 (0 : Fin 1) j)) (x8 (ix2 (0 : Fin 1) (0 : Fin 1))) j := by
  unfold Gen.out0_9
  rw [View.canon_unit_zero hz3]
  simp only [View.ld_unit_zero (S := S1x2048x1024) hz3, View.ld_unit_zero (S := S1024x128) hz2,
    View.ld_unit_zero (S := S128x256) hz2, View.ld_unit_zero (S := S256x128) hz2, View.ld_unit_zero (S := S128x1024) hz2,
    View.ld_unit_zero (S := S1x1024) hz2, View.ld_unit_zero (S := S1x1) hz2]
  rw [pay1_stage, storedV_at, gateV_at, projectV_at]
  unfold rowOutSplit
  have h4 : ∀ d : Fin 128, Gen.k0_pay4 (F := Ideal) x0 x1 x2 x3 x4 (ix2 r d) = Gen.k0_pay3 (F := Ideal) x0 x1 x2 x3 x4 (ix2 r d) :=
    fun _ => rfl
  have h5 : ∀ d : Fin 128, Gen.k0_pay5 (F := Ideal) x0 x1 x2 x3 x4 (ix2 r d)
      = Gen.k0_pay3 (F := Ideal) x0 x1 x2 x3 x4 (ix2 r d) - Gen.k0_pay3 (F := Ideal) x0 x1 x2 x3 x4 (ix2 r d) := fun _ => rfl
  simp only [h4, h5, ctx_at, rows_at]

end Cert.Attn

end
-- ==== Proof.RowMath.lean ====
/-
  The split row is the plain row when the entries are real numbers.

  On the extended reals a - a = 0 exactly for a real a, a product with 0 is 0 whatever the other factor, and adding 0
  changes nothing; so with the weights' remainders zero and the row real, the split query is the query. The context is a
  real number (sums and products of reals; the row maximum of reals is real; exp of a real is a positive real, so the
  softmax denominator is a nonzero real), hence its remainder c - c is 0 and the split projection is the projection.
-/
import proofs.«414104_j8186207666960_3_alg».proof.Proof.Spec

noncomputable section

namespace Cert.Attn

open Idealize.ShloMosaic Idealize.ShloMosaic.ValueIdx

theorem sub_self_of_isReal {a : EReal} (h : IsReal a) : a - a = 0 := by
  obtain ⟨r, rfl⟩ := h
  rw [← EReal.coe_sub, sub_self, EReal.coe_zero]

/-! ## The real numbers are closed under the operations of a row -/

theorem isReal_add {a b : EReal} (ha : IsReal a) (hb : IsReal b) : IsReal (a + b) := by
  obtain ⟨r, rfl⟩ := ha
  obtain ⟨t, rfl⟩ := hb
  exact ⟨r + t, (EReal.coe_add r t).symm⟩

theorem isReal_mul {a b : EReal} (ha : IsReal a) (hb : IsReal b) : IsReal (a * b) := by
  obtain ⟨r, rfl⟩ := ha
  obtain ⟨t, rfl⟩ := hb
  exact ⟨r * t, (EReal.coe_mul r t).symm⟩

/-- A finite sum of real numbers is real. -/
theorem isReal_sum {ι : Type} (s : Finset ι) (f : ι → EReal) (h : ∀ i ∈ s, IsReal (f i)) :
    IsReal (∑ i ∈ s, f i) := by
  classical
  induction s using Finset.induction_on with
  | empty => exact ⟨0, by rw [Finset.sum_empty, EReal.coe_zero]⟩
  | insert a s ha ih =>
    rw [Finset.sum_insert ha]
    exact isReal_add (h a (Finset.mem_insert_self a s)) (ih fun i hi => h i (Finset.mem_insert_of_mem hi))

/-- A finite sum of coerced reals is the coerced sum. -/
theorem coe_sum {ι : Type} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- An extended real that is a positive real number. -/
def IsPos (x : EReal) : Prop := ∃ r : ℝ, 0 < r ∧ x = (r : EReal)

/-- The temperature is a normal f32 word, hence a real number (its value is not needed). -/
theorem isReal_scale : IsReal scale := by
  unfold scale Ideal.ofBits Ideal.ieee
  simp only []
  rw [if_neg (by decide), if_neg (by decide)]
  exact ⟨_, rfl⟩

/-- The word of minus infinity is the bottom of the extended reals. -/
theorem negInf_eq_bot : negInf = ⊥ := by
  simp [negInf, Ideal.ofBits, Ideal.ieee]

/-! ## Each stage of a real row is real -/

theorem isReal_query (x : Fin 1024 → EReal) (wq : Fin 1024 → Fin 128 → EReal) (hx : ∀ m, IsReal (x m))
    (hwq : ∀ m d, IsReal (wq m d)) (d : Fin 128) : IsReal (query x wq d) := by
  unfold query
  exact isReal_sum _ _ fun m _ => isReal_mul (hx m) (hwq m d)

theorem isReal_score (q : Fin 128 → EReal) (kT : Fin 128 → Fin 256 → EReal) (hq : ∀ d, IsReal (q d))
    (hk : ∀ d p, IsReal (kT d p)) (p : Fin 256) : IsReal (score q kT p) := by
  unfold score
  exact isReal_mul (isReal_sum _ _ fun d _ => isReal_mul (hq d) (hk d p)) isReal_scale

/-- The maximum of 256 real numbers, started from minus infinity, is real: it is at least the first of them, and
    below plus infinity because each of them and the start are. -/
theorem isReal_rowMax (s : Fin 256 → EReal) (hs : ∀ p, IsReal (s p)) : IsReal (rowMax s) := by
  have h1 : rowMax s ≠ ⊥ := by
    obtain ⟨r, hr⟩ := hs 0
    have hle : s 0 ≤ rowMax s := (Finset.le_fold_max _).mpr (Or.inr ⟨0, Finset.mem_univ _, le_rfl⟩)
    intro h
    rw [h, hr] at hle
    exact absurd hle (not_le.mpr (EReal.bot_lt_coe r))
  have h2 : rowMax s ≠ ⊤ := by
    have hlt : rowMax s < ⊤ := (Finset.fold_max_lt _).mpr
      ⟨by rw [negInf_eq_bot]; exact bot_lt_top, fun p _ => by
        obtain ⟨r, hr⟩ := hs p
        rw [hr]
        exact EReal.coe_lt_top r⟩
    exact ne_of_lt hlt
  exact ⟨(rowMax s).toReal, (EReal.coe_toReal h2 h1).symm⟩

theorem isPos_expo (s : Fin 256 → EReal) (hs : ∀ p, IsReal (s p)) (p : Fin 256) : IsPos (expo s p) := by
  obtain ⟨a, ha⟩ := hs p
  obtain ⟨b, hb⟩ := isReal_rowMax s hs
  refine ⟨Real.exp (a - b), Real.exp_pos _, ?_⟩
  unfold expo
  rw [ha, hb, ← EReal.coe_sub]
  exact Ideal.exp_coe (a - b)

/-- The softmax denominator: a sum of 256 positive reals is a positive real. -/
theorem isPos_denom (s : Fin 256 → EReal) (hs : ∀ p, IsReal (s p)) : IsPos (denom s) := by
  choose e he using fun p => isPos_expo s hs p
  refine ⟨∑ p, e p, Finset.sum_pos (fun p _ => (he p).1) Finset.univ_nonempty, ?_⟩
  unfold denom
  rw [← coe_sum]
  exact Finset.sum_congr rfl fun p _ => (he p).2

theorem isReal_weight (s : Fin 256 → EReal) (hs : ∀ p, IsReal (s p)) (p : Fin 256) : IsReal (weight s p) := by
  obtain ⟨e, _, he⟩ := isPos_expo s hs p
  obtain ⟨D, hD, hDe⟩ := isPos_denom s hs
  unfold weight
  rw [he, hDe, Ideal.div_coe (ne_of_gt hD)]
  exact ⟨e * (1 / D), (EReal.coe_mul _ _).symm⟩

theorem isReal_context (a : Fin 256 → EReal) (v : Fin 256 → Fin 128 → EReal) (ha : ∀ p, IsReal (a p))
    (hv : ∀ p d, IsReal (v p d)) (d : Fin 128) : IsReal (context a v d) := by
  unfold context
  exact isReal_sum _ _ fun p _ => isReal_mul (ha p) (hv p d)

/-- A key or value entry of real tables is real. -/
theorem isReal_keyval (pe : (⟨2, ![256, 128]⟩ : Shape).Idx → EReal) (W : (⟨2, ![128, 128]⟩ : Shape).Idx → EReal)
    (hpe : ∀ i, IsReal (pe i)) (hW : ∀ i, IsReal (W i)) (p : Fin 256) (d : Fin 128) : IsReal (keyval pe W p d) := by
  unfold keyval
  exact isReal_sum _ _ fun j _ => isReal_mul (hpe _) (hW _)

/-! ## The split projections are the plain ones -/

/-- With the row real (so x - x = 0) and the weights' remainder 0, the two extra sums of the split query vanish. -/
theorem querySplit_eq_query (x : Fin 1024 → EReal) (wq wqlo : Fin 1024 → Fin 128 → EReal)
    (hx : ∀ m, IsReal (x m)) (hwqlo : ∀ m d, wqlo m d = 0) :
    querySplit x (fun m => x m - x m) wq wqlo = query x wq := by
  funext d
  show (∑ m : Fin 1024, x m * wq m d + ∑ m : Fin 1024, x m * wqlo m d) + ∑ m : Fin 1024, (x m - x m) * wq m d
    = ∑ m : Fin 1024, x m * wq m d
  have h2 : ∑ m : Fin 1024, x m * wqlo m d = 0 :=
    Finset.sum_eq_zero fun m _ => by rw [hwqlo, mul_zero]
  have h3 : ∑ m : Fin 1024, (x m - x m) * wq m d = 0 :=
    Finset.sum_eq_zero fun m _ => by rw [sub_self_of_isReal (hx m), zero_mul]
  rw [h2, h3, add_zero, add_zero]

/-- The same for the output projection, the context real and the weights' remainder 0. -/
theorem projectSplit_eq_project (c : Fin 128 → EReal) (wo wolo : Fin 128 → Fin 1024 → EReal)
    (hc : ∀ d, IsReal (c d)) (hwolo : ∀ d m, wolo d m = 0) (m : Fin 1024) :
    projectSplit c (fun d => c d - c d) wo wolo m = project c wo m := by
  show (∑ d : Fin 128, c d * wo d m + ∑ d : Fin 128, c d * wolo d m) + ∑ d : Fin 128, (c d - c d) * wo d m
    = ∑ d : Fin 128, c d * wo d m
  have h2 : ∑ d : Fin 128, c d * wolo d m = 0 :=
    Finset.sum_eq_zero fun d _ => by rw [hwolo, mul_zero]
  have h3 : ∑ d : Fin 128, (c d - c d) * wo d m = 0 :=
    Finset.sum_eq_zero fun d _ => by rw [sub_self_of_isReal (hc d), zero_mul]
  rw [h2, h3, add_zero, add_zero]

/-- With real entries and zero weight remainders, the row the kernel computes is the row of the specification. -/
theorem rowOutSplit_eq_rowOut (x : Fin 1024 → EReal) (wq wqlo : Fin 1024 → Fin 128 → EReal) (kT : Fin 128 → Fin 256 → EReal)
    (v : Fin 256 → Fin 128 → EReal) (wo wolo : Fin 128 → Fin 1024 → EReal) (gw : Fin 1024 → EReal) (gb : EReal)
    (hx : ∀ m, IsReal (x m)) (hwq : ∀ m d, IsReal (wq m d)) (hwqlo : ∀ m d, wqlo m d = 0)
    (hk : ∀ d p, IsReal (kT d p)) (hv : ∀ p d, IsReal (v p d)) (hwolo : ∀ d m, wolo d m = 0) (m : Fin 1024) :
    rowOutSplit x wq wqlo kT v wo wolo gw gb m = rowOut x wq kT v wo gw gb m := by
  have hc : contextSplit x wq wqlo kT v = context (weight (score (query x wq) kT)) v := by
    funext d
    unfold contextSplit
    rw [querySplit_eq_query x wq wqlo hx hwqlo]
  have hreal : ∀ d, IsReal (context (weight (score (query x wq) kT)) v d) := fun d =>
    isReal_context _ _ (fun p => isReal_weight _ (fun p' => isReal_score _ _ (isReal_query x wq hx hwq) hk p') p) hv d
  unfold rowOutSplit rowOut
  rw [hc, projectSplit_eq_project _ wo wolo hreal hwolo m]

end Cert.Attn

end
-- ==== Proof.HostWindows.lean ====
/-
  What the kernel's windows hold when the region is entered: the host operations before the call, read at an index.
  The leading part of the transposed query weights is the transpose itself (a change of float format is the identity on
  exact numbers) and the remainder is the transpose minus itself; likewise for the output weights; the keys are the
  transposed key projection of the table, the values its value projection; the gate bias is the one entry of its array.
-/
import proofs.«414104_j8186207666960_3_alg».proof.Proof.Spec
import proofs.«414104_j8186207666960_3_alg».proof.Proof.Gen.KernelIdeal.Frame
import Idealize.ShloMosaic.Lib.ValueLayout
import Idealize.ShloMosaic.Lib.StableHlo.Run
import Idealize.ShloMosaic.PureOps.Ideal.Laws

noncomputable section

namespace Cert.Attn

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The argument arrays on core c, each at its literal type. -/
abbrev argX (c : Dev nD) : S8x4096x1024.Idx → EReal := m ((c : Thread nD τ).loc main_arg0)
abbrev argPe (c : Dev nD) : S256x128.Idx → EReal := m ((c : Thread nD τ).loc main_arg1)
abbrev argWq (c : Dev nD) : S128x1024.Idx → EReal := m ((c : Thread nD τ).loc main_arg2)
abbrev argWk (c : Dev nD) : S128x128.Idx → EReal := m ((c : Thread nD τ).loc main_arg3)
abbrev argWv (c : Dev nD) : S128x128.Idx → EReal := m ((c : Thread nD τ).loc main_arg4)
abbrev argWo (c : Dev nD) : S1024x128.Idx → EReal := m ((c : Thread nD τ).loc main_arg5)
abbrev argGw (c : Dev nD) : S1x1024.Idx → EReal := m ((c : Thread nD τ).loc main_arg6)
abbrev argGb (c : Dev nD) : S1.Idx → EReal := m ((c : Thread nD τ).loc main_arg7)

/-! ## The host's matrix product at an index

The product of a 256 x 128 array with a 128 x 128 array, contracting the left operand's second axis with the right
operand's first: entry (p, d) is the sum over k of left (p, k) times right (k, d). The four lemmas say which coordinate
of the output index, or of the contraction index, each operand coordinate is. -/

theorem hostDot_lhs_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide),
    dif_pos (show (0 : Fin S256x128.rank) ∈ dot_S256x128_S128x128_S256x128_1_0_0_1_n_n.lhsNonContracting by decide)]
  rfl

theorem hostDot_lhs_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q

theorem hostDot_rhs_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q

theorem hostDot_rhs_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide),
    dif_pos (show (1 : Fin S128x128.rank) ∈ dot_S256x128_S128x128_S256x128_1_0_0_1_n_n.rhsNonContracting by decide)]
  rfl

/-- Entry (p, d) of the host's product: the sum over k of left (p, k) times right (k, d). -/
theorem hostDot_at (x : FVec Ideal S256x128 .f32) (y : FVec Ideal S128x128 .f32) (p : Fin 256) (d : Fin 128) :
    (Host.dotGeneral (F := Ideal) dot_S256x128_S128x128_S256x128_1_0_0_1_n_n (some .fp32) x y : FVec Ideal S256x128 .f32) (ix2 p d)
      = ∑ k : Fin 128, x (ix2 p k) * y (ix2 k d) := by
  simp only [Host.dotGeneral]
  rw [Ideal.dotGeneral_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p d)
      ((ValueIdx.contrEquiv1 dot_S256x128_S128x128_S256x128_1_0_0_1_n_n 128 rfl rfl).symm k) = ix2 p k :=
    funext fun a => Fin.ext (by
      match a with
      | ⟨0, _⟩ => exact hostDot_lhs_0 _ _
      | ⟨1, _⟩ => exact (hostDot_lhs_1 _ _).trans hk)
  have er : dot_S256x128_S128x128_S256x128_1_0_0_1_n_n.rhsIdx (ix2 p d)
      ((ValueIdx.contrEquiv1 dot_S256x128_S128x128_S256x128_1_0_0_1_n_n 128 rfl rfl).symm k) = ix2 k d :=
    funext fun a => Fin.ext (by
      match a with
      | ⟨0, _⟩ => exact (hostDot_rhs_0 _ _).trans hk
      | ⟨1, _⟩ => exact hostDot_rhs_1 _ _)
  rw [el, er]

/-! ## The windows -/

/-- Window 1: the transposed query weights. -/
theorem win1_at (c : Dev nD) (m' : Fin 1024) (d : Fin 128) :
    (V m c main_v7 : S1024x128.Idx → EReal) (ix2 m' d) = argWq m c (ix2 d m') := by
  have e : @Eq (S1024x128.Idx → EReal) (V m c main_v7)
      (truncf (F := Ideal) .bf16 (transpose S1024x128 [1, 0] (argWq m c) Facts₀.transposes_S128x1024_S1024x128_1_0)
          Facts₀.bitsLt_bf16_f32) := by
    dsimp only [Gen.V, Gen.hostOps0]; after_results
  rw [e]
  exact (truncf_apply (φ := .f32) (ψ := .bf16) _ Facts₀.bitsLt_bf16_f32 _).trans (transpose_ix2_apply _ _ _ _)

/-- Window 2: their remainder, a - a entry by entry. -/
theorem win2_at (c : Dev nD) (m' : Fin 1024) (d : Fin 128) :
    (V m c main_v10 : S1024x128.Idx → EReal) (ix2 m' d)
      = argWq m c (ix2 d m') - argWq m c (ix2 d m') := by
  have e : @Eq (S1024x128.Idx → EReal) (V m c main_v10)
      (truncf (F := Ideal) .bf16
        (subf (transpose S1024x128 [1, 0] (argWq m c) Facts₀.transposes_S128x1024_S1024x128_1_0)
          (extf .f32 (truncf .bf16 (transpose S1024x128 [1, 0] (argWq m c) Facts₀.transposes_S128x1024_S1024x128_1_0)
            Facts₀.bitsLt_bf16_f32) Facts₀.bitsLt_bf16_f32))
        Facts₀.bitsLt_bf16_f32) := by
    dsimp only [Gen.V, Gen.hostOps0]; after_results
  have t := transpose_ix2_apply (argWq m c) Facts₀.transposes_S128x1024_S1024x128_1_0 m' d
  rw [e]
  exact (truncf_apply (φ := .f32) (ψ := .bf16) _ Facts₀.bitsLt_bf16_f32 _).trans ((subf_apply (φ := .f32) _ _ _).trans
    (congrArg₂ (· - ·) t ((extf_apply (φ := .bf16) (ψ := .f32) _ Facts₀.bitsLt_bf16_f32 _).trans ((truncf_apply (φ := .f32) (ψ := .bf16) _ Facts₀.bitsLt_bf16_f32 _).trans t))))

/-- Window 3: the transposed keys. -/
theorem win3_at (c : Dev nD) (d : Fin 128) (p : Fin 256) :
    (V m c main_v15 : S128x256.Idx → EReal) (ix2 d p)
      = keyval (argPe m c) (argWk m c) p d := by
  have e : @Eq (S128x256.Idx → EReal) (V m c main_v15)
      (truncf (F := Ideal) .bf16
        (transpose S128x256 [1, 0]
          (Host.dotGeneral (F := Ideal) (φ₁ := .f32) (φ₂ := .f32) dot_S256x128_S128x128_S256x128_1_0_0_1_n_n (some .fp32) (argPe m c)
            (transpose S128x128 [1, 0] (argWk m c) Facts₀.transposes_S128x128_S128x128_1_0))
          Facts₀.transposes_S256x128_S128x256_1_0)
        Facts₀.bitsLt_bf16_f32) := by
    dsimp only [Gen.V, Gen.hostOps0]; after_results
  rw [e]
  refine (truncf_apply (φ := .f32) (ψ := .bf16) _ Facts₀.bitsLt_bf16_f32 _).trans ((transpose_ix2_apply _ _ _ _).trans ((hostDot_at _ _ p d).trans ?_))
  exact Finset.sum_congr rfl fun k _ =>
    congrArg (argPe m c (ix2 p k) * ·) (transpose_ix2_apply (argWk m c) Facts₀.transposes_S128x128_S128x128_1_0 k d)

/-- Window 4: the values. -/
theorem win4_at (c : Dev nD) (p : Fin 256) (d : Fin 128) :
    (V m c main_v16 : S256x128.Idx → EReal) (ix2 p d)
      = keyval (argPe m c) (argWv m c) p d := by
  have e : @Eq (S256x128.Idx → EReal) (V m c main_v16)
      (truncf (F := Ideal) .bf16
        (Host.dotGeneral (F := Ideal) (φ₁ := .f32) (φ₂ := .f32) dot_S256x128_S128x128_S256x128_1_0_0_1_n_n (some .fp32) (argPe m c)
          (transpose S128x128 [1, 0] (argWv m c) Facts₀.transposes_S128x128_S128x128_1_0))
        Facts₀.bitsLt_bf16_f32) := by
    dsimp only [Gen.V, Gen.hostOps0]; after_results
  rw [e]
  refine (truncf_apply (φ := .f32) (ψ := .bf16) _ Facts₀.bitsLt_bf16_f32 _).trans ((hostDot_at _ _ p d).trans ?_)
  exact Finset.sum_congr rfl fun k _ =>
    congrArg (argPe m c (ix2 p k) * ·) (transpose_ix2_apply (argWv m c) Facts₀.transposes_S128x128_S128x128_1_0 k d)

/-- Window 5: the transposed output weights. -/
theorem win5_at (c : Dev nD) (d : Fin 128) (m' : Fin 1024) :
    (V m c main_v11 : S128x1024.Idx → EReal) (ix2 d m') = argWo m c (ix2 m' d) := by
  have e : @Eq (S128x1024.Idx → EReal) (V m c main_v11)
      (truncf (F := Ideal) .bf16 (transpose S128x1024 [1, 0] (argWo m c) Facts₀.transposes_S1024x128_S128x1024_1_0)
          Facts₀.bitsLt_bf16_f32) := by
    dsimp only [Gen.V, Gen.hostOps0]; after_results
  rw [e]
  exact (truncf_apply (φ := .f32) (ψ := .bf16) _ Facts₀.bitsLt_bf16_f32 _).trans (transpose_ix2_apply _ _ _ _)

/-- Window 6: their remainder. -/
theorem win6_at (c : Dev nD) (d : Fin 128) (m' : Fin 1024) :
    (V m c main_v14 : S128x1024.Idx → EReal) (ix2 d m')
      = argWo m c (ix2 m' d) - argWo m c (ix2 m' d) := by
  have e : @Eq (S128x1024.Idx → EReal) (V m c main_v14)
      (truncf (F := Ideal) .bf16
        (subf (transpose S128x1024 [1, 0] (argWo m c) Facts₀.transposes_S1024x128_S128x1024_1_0)
          (extf .f32 (truncf .bf16 (transpose S128x1024 [1, 0] (argWo m c) Facts₀.transposes_S1024x128_S128x1024_1_0)
            Facts₀.bitsLt_bf16_f32) Facts₀.bitsLt_bf16_f32))
        Facts₀.bitsLt_bf16_f32) := by
    dsimp only [Gen.V, Gen.hostOps0]; after_results
  have t := transpose_ix2_apply (argWo m c) Facts₀.transposes_S1024x128_S128x1024_1_0 d m'
  rw [e]
  exact (truncf_apply (φ := .f32) (ψ := .bf16) _ Facts₀.bitsLt_bf16_f32 _).trans ((subf_apply (φ := .f32) _ _ _).trans
    (congrArg₂ (· - ·) t ((extf_apply (φ := .bf16) (ψ := .f32) _ Facts₀.bitsLt_bf16_f32 _).trans ((truncf_apply (φ := .f32) (ψ := .bf16) _ Facts₀.bitsLt_bf16_f32 _).trans t))))

/-- Window 8: the gate bias as a 1 x 1 array. -/
theorem win8_at (c : Dev nD) :
    (V m c main_v17 : S1x1.Idx → EReal) (ix2 (0 : Fin 1) (0 : Fin 1)) = argGb m c (ix1 (0 : Fin 1)) := by
  have e : @Eq (S1x1.Idx → EReal) (V m c main_v17)
      (shapeCast S1x1 (argGb m c) Facts₀.shapeCasts_S1_S1x1) := by
    dsimp only [Gen.V, Gen.hostOps0]; after_results; rfl
  rw [e]
  exact shapeCast_a_1a_apply _ _ _ _

end Cert.Attn

end
-- ==== Proof.Blocks.lean ====
/-
  From blocks to the array. The grid has 16 points (8 batch elements by 2 halves of the 4096 positions); at point
  (b, h) the input window and the output window hold rows h*2048 .. h*2048 + 2047 of batch element b, and every other
  window holds its whole array. So row r of the block written at (b, h) is row (b, h*2048 + r) of the specification, the
  16 blocks tile the result array, and the array after the run is the specification of the argument arrays.
  The remainders of the query and output weights are a - a of real numbers, hence zero.
-/
import proofs.«414104_j8186207666960_3_alg».proof.Proof.Spec
import proofs.«414104_j8186207666960_3_alg».proof.Proof.Pay
import proofs.«414104_j8186207666960_3_alg».proof.Proof.RowMath
import proofs.«414104_j8186207666960_3_alg».proof.Proof.HostWindows
import proofs.«414104_j8186207666960_3_alg».proof.Proof.Gen.KernelIdeal.Value

noncomputable section

namespace Cert.Attn

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-! ## The index maps, decided over the 16 points -/

/-- The input and the output window move together: block (b, h, 0) with b < 8, h < 2. -/
theorem idx_xo : ∀ t : Fin cfg0.N, win0_9.index t (0 : Fin 3) < 8 ∧ win0_9.index t (1 : Fin 3) < 2 ∧ win0_9.index t (2 : Fin 3) = 0
    ∧ win0_0.index t (0 : Fin 3) = win0_9.index t (0 : Fin 3) ∧ win0_0.index t (1 : Fin 3) = win0_9.index t (1 : Fin 3)
    ∧ win0_0.index t (2 : Fin 3) = 0 :=
  (by decide +kernel : ∀ t : Fin grid0.N, _)

/-- Every other window stays at block (0, 0): its whole array. -/
theorem idx_res : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every block of the result is some point's. -/
theorem idx_onto : ∀ (q0 : Fin 8) (q1 : Fin 2), ∃ t : Fin cfg0.N, win0_9.index t = ![q0.val, q1.val, 0] :=
  (by decide +kernel : ∀ (q0 : Fin 8) (q1 : Fin 2), ∃ t : Fin grid0.N, win0_9.index t = ![q0.val, q1.val, 0])

/-- The batch element of point t, and the position of row r of its block. -/
def bOf (t : Fin cfg0.N) : Fin 8 := ⟨win0_9.index t (0 : Fin 3), (idx_xo t).1⟩
def sOf (t : Fin cfg0.N) (r : Fin 2048) : Fin 4096 :=
  ⟨win0_9.index t (1 : Fin 3) * 2048 + r.val, by have := (idx_xo t).2.1; have := r.isLt; omega⟩

/-! ## Each window's block read at an index -/

theorem blk0_at (c : Dev nD) (t : Fin cfg0.N) (r : Fin 2048) (j : Fin 1024) :
    iblk m c 0 t (ix3 (0 : Fin 1) r j) = argX m c (ix3 (bOf t) (sOf t r) j) := by
  obtain ⟨h0, h1, h2, e0, e1, e2⟩ := idx_xo t
  show V m c main_arg0 (((cfg0.win 0).blk t).view.emb (ix3 (0 : Fin 1) r j)) = _
  refine (congrFun (V_main_arg0 m c) _).trans ?_
  refine congrArg (argX m c) ?_
  funext a; apply Fin.ext
  match a with
  | ⟨0, _⟩ => show win0_0.index t (0 : Fin 3) * 1 + 1 * 0 = win0_9.index t (0 : Fin 3); omega
  | ⟨1, _⟩ => show win0_0.index t (1 : Fin 3) * 2048 + 1 * r.val = win0_9.index t (1 : Fin 3) * 2048 + r.val; omega
  | ⟨2, _⟩ => show win0_0.index t (2 : Fin 3) * 1024 + 1 * j.val = j.val; omega

theorem blk1_at (c : Dev nD) (t : Fin cfg0.N) (j : Fin 1024) (d : Fin 128) :
    iblk m c 1 t (ix2 j d) = argWq m c (ix2 d j) := by
  obtain ⟨a0, a1, -⟩ := idx_res t
  have e : ((cfg0.win 1).blk t).view.emb (ix2 j d) = ix2 j d := by
    funext a; apply Fin.ext
    match a with
    | ⟨0, _⟩ => show win0_1.index t (0 : Fin 2) * 1024 + 1 * j.val = j.val; omega
    | ⟨1, _⟩ => show win0_1.index t (1 : Fin 2) * 128 + 1 * d.val = d.val; omega
  show V m c main_v7 (((cfg0.win 1).blk t).view.emb (ix2 j d)) = _
  rw [e]; exact win1_at m c j d

theorem blk2_at (c : Dev nD) (t : Fin cfg0.N) (j : Fin 1024) (d : Fin 128) :
    iblk m c 2 t (ix2 j d) = argWq m c (ix2 d j) - argWq m c (ix2 d j) := by
  obtain ⟨-, -, a0, a1, -⟩ := idx_res t
  have e : ((cfg0.win 2).blk t).view.emb (ix2 j d) = ix2 j d := by
    funext a; apply Fin.ext
    match a with
    | ⟨0, _⟩ => show win0_2.index t (0 : Fin 2) * 1024 + 1 * j.val = j.val; omega
    | ⟨1, _⟩ => show win0_2.index t (1 : Fin 2) * 128 + 1 * d.val = d.val; omega
  show V m c main_v10 (((cfg0.win 2).blk t).view.emb (ix2 j d)) = _
  rw [e]; exact win2_at m c j d

theorem blk3_at (c : Dev nD) (t : Fin cfg0.N) (d : Fin 128) (p : Fin 256) :
    iblk m c 3 t (ix2 d p) = keyval (argPe m c) (argWk m c) p d := by
  obtain ⟨-, -, -, -, a0, a1, -⟩ := idx_res t
  have e : ((cfg0.win 3).blk t).view.emb (ix2 d p) = ix2 d p := by
    funext a; apply Fin.ext
    match a with
    | ⟨0, _⟩ => show win0_3.index t (0 : Fin 2) * 128 + 1 * d.val = d.val; omega
    | ⟨1, _⟩ => show win0_3.index t (1 : Fin 2) * 256 + 1 * p.val = p.val; omega
  show V m c main_v15 (((cfg0.win 3).blk t).view.emb (ix2 d p)) = _
  rw [e]; exact win3_at m c d p

theorem blk4_at (c : Dev nD) (t : Fin cfg0.N) (p : Fin 256) (d : Fin 128) :
    iblk m c 4 t (ix2 p d) = keyval (argPe m c) (argWv m c) p d := by
  obtain ⟨-, -, -, -, -, -, a0, a1, -⟩ := idx_res t
  have e : ((cfg0.win 4).blk t).view.emb (ix2 p d) = ix2 p d := by
    funext a; apply Fin.ext
    match a with
    | ⟨0, _⟩ => show win0_4.index t (0 : Fin 2) * 256 + 1 * p.val = p.val; omega
    | ⟨1, _⟩ => show win0_4.index t (1 : Fin 2) * 128 + 1 * d.val = d.val; omega
  show V m c main_v16 (((cfg0.win 4).blk t).view.emb (ix2 p d)) = _
  rw [e]; exact win4_at m c p d

theorem blk5_at (c : Dev nD) (t : Fin cfg0.N) (d : Fin 128) (j : Fin 1024) :
    iblk m c 5 t (ix2 d j) = argWo m c (ix2 j d) := by
  obtain ⟨-, -, -, -, -, -, -, -, a0, a1, -⟩ := idx_res t
  have e : ((cfg0.win 5).blk t).view.emb (ix2 d j) = ix2 d j := by
    funext a; apply Fin.ext
    match a with
    | ⟨0, _⟩ => show win0_5.index t (0 : Fin 2) * 128 + 1 * d.val = d.val; omega
    | ⟨1, _⟩ => show win0_5.index t (1 : Fin 2) * 1024 + 1 * j.val = j.val; omega
  show V m c main_v11 (((cfg0.win 5).blk t).view.emb (ix2 d j)) = _
  rw [e]; exact win5_at m c d j

theorem blk6_at (c : Dev nD) (t : Fin cfg0.N) (d : Fin 128) (j : Fin 1024) :
    iblk m c 6 t (ix2 d j) = argWo m c (ix2 j d) - argWo m c (ix2 j d) := by
  obtain ⟨-, -, -, -, -, -, -, -, -, -, a0, a1, -⟩ := idx_res t
  have e : ((cfg0.win 6).blk t).view.emb (ix2 d j) = ix2 d j := by
    funext a; apply Fin.ext
    match a with
    | ⟨0, _⟩ => show win0_6.index t (0 : Fin 2) * 128 + 1 * d.val = d.val; omega
    | ⟨1, _⟩ => show win0_6.index t (1 : Fin 2) * 1024 + 1 * j.val = j.val; omega
  show V m c main_v14 (((cfg0.win 6).blk t).view.emb (ix2 d j)) = _
  rw [e]; exact win6_at m c d j

theorem blk7_at (c : Dev nD) (t : Fin cfg0.N) (j : Fin 1024) :
    iblk m c 7 t (ix2 (0 : Fin 1) j) = argGw m c (ix2 (0 : Fin 1) j) := by
  obtain ⟨-, -, -, -, -, -, -, -, -, -, -, -, a0, a1, -⟩ := idx_res t
  have e : ((cfg0.win 7).blk t).view.emb (ix2 (0 : Fin 1) j) = ix2 (0 : Fin 1) j := by
    funext a; apply Fin.ext
    match a with
    | ⟨0, _⟩ => show win0_7.index t (0 : Fin 2) * 1 + 1 * 0 = 0; omega
    | ⟨1, _⟩ => show win0_7.index t (1 : Fin 2) * 1024 + 1 * j.val = j.val; omega
  show V m c main_arg6 (((cfg0.win 7).blk t).view.emb (ix2 (0 : Fin 1) j)) = _
  rw [e]; exact congrFun (V_main_arg6 m c) _

theorem blk8_at (c : Dev nD) (t : Fin cfg0.N) :
    iblk m c 8 t (ix2 (0 : Fin 1) (0 : Fin 1)) = argGb m c (ix1 (0 : Fin 1)) := by
  obtain ⟨-, -, -, -, -, -, -, -, -, -, -, -, -, -, a0, a1⟩ := idx_res t
  have e : ((cfg0.win 8).blk t).view.emb (ix2 (0 : Fin 1) (0 : Fin 1)) = ix2 (0 : Fin 1) (0 : Fin 1) := by
    funext a; apply Fin.ext
    match a with
    | ⟨0, _⟩ => show win0_8.index t (0 : Fin 2) * 1 + 1 * 0 = 0; omega
    | ⟨1, _⟩ => show win0_8.index t (1 : Fin 2) * 1 + 1 * 0 = 0; omega
  show V m c main_v17 (((cfg0.win 8).blk t).view.emb (ix2 (0 : Fin 1) (0 : Fin 1))) = _
  rw [e]; exact win8_at m c

theorem emb9_at (t : Fin cfg0.N) (r : Fin 2048) (j : Fin 1024) :
    ((cfg0.win 9).blk t).view.emb (ix3 (0 : Fin 1) r j) = ix3 (bOf t) (sOf t r) j := by
  obtain ⟨h0, h1, h2, -⟩ := idx_xo t
  funext a; apply Fin.ext
  match a with
  | ⟨0, _⟩ => show win0_9.index t (0 : Fin 3) * 1 + 1 * 0 = win0_9.index t (0 : Fin 3); omega
  | ⟨1, _⟩ => show win0_9.index t (1 : Fin 3) * 2048 + 1 * r.val = win0_9.index t (1 : Fin 3) * 2048 + r.val; omega
  | ⟨2, _⟩ => show win0_9.index t (2 : Fin 3) * 1024 + 1 * j.val = j.val; omega

/-! ## What a point writes back -/

/-- Equal operands give equal split rows. -/
theorem rowOutSplit_congr {x x' : Fin 1024 → EReal} {wq wq' wqlo wqlo' : Fin 1024 → Fin 128 → EReal}
    {kT kT' : Fin 128 → Fin 256 → EReal} {v v' : Fin 256 → Fin 128 → EReal} {wo wo' wolo wolo' : Fin 128 → Fin 1024 → EReal}
    {gw gw' : Fin 1024 → EReal} {gb gb' : EReal}
    (h0 : x = x') (h1 : wq = wq') (h2 : wqlo = wqlo') (h3 : kT = kT') (h4 : v = v') (h5 : wo = wo') (h6 : wolo = wolo')
    (h7 : gw = gw') (h8 : gb = gb') (j : Fin 1024) :
    rowOutSplit x wq wqlo kT v wo wolo gw gb j = rowOutSplit x' wq' wqlo' kT' v' wo' wolo' gw' gb' j := by
  subst h0 h1 h2 h3 h4 h5 h6 h7 h8; rfl

/-- Row r of the block point t stores is row (b, s) of the specification. -/
theorem flushed_at (c : Dev nD) (t : Fin cfg0.N) (r : Fin 2048) (j : Fin 1024)
    (hx : ∀ i, IsReal (argX m c i)) (hpe : ∀ i, IsReal (argPe m c i)) (hwq : ∀ i, IsReal (argWq m c i))
    (hwk : ∀ i, IsReal (argWk m c i)) (hwv : ∀ i, IsReal (argWv m c i)) (hwo : ∀ i, IsReal (argWo m c i)) :
    out0_9 (iblk m c 0 t) (iblk m c 1 t) (iblk m c 2 t) (iblk m c 3 t) (iblk m c 4 t) (iblk m c 5 t) (iblk m c 6 t)
        (iblk m c 7 t) (iblk m c 8 t) (ix3 (0 : Fin 1) r j)
      = Gat (argX m c) (argPe m c) (argWq m c) (argWk m c) (argWv m c) (argWo m c) (argGw m c) (argGb m c) (bOf t) (sOf t r) j := by
  refine (out_at (iblk m c 0 t) (iblk m c 1 t) (iblk m c 2 t) (iblk m c 3 t) (iblk m c 4 t) (iblk m c 5 t) (iblk m c 6 t)
    (iblk m c 7 t) (iblk m c 8 t) r j).trans ?_
  refine (rowOutSplit_congr (x' := fun j' => argX m c (ix3 (bOf t) (sOf t r) j')) (wq' := fun j' d => argWq m c (ix2 d j'))
    (wqlo' := fun _ _ => 0) (kT' := fun d p => keyval (argPe m c) (argWk m c) p d)
    (v' := fun p d => keyval (argPe m c) (argWv m c) p d) (wo' := fun d j' => argWo m c (ix2 j' d)) (wolo' := fun _ _ => 0)
    (gw' := fun j' => argGw m c (ix2 (0 : Fin 1) j')) (gb' := argGb m c (ix1 (0 : Fin 1)))
    (funext fun j' => blk0_at m c t r j')
    (funext fun j' => funext fun d => blk1_at m c t j' d)
    (funext fun j' => funext fun d => (blk2_at m c t j' d).trans (sub_self_of_isReal (hwq _)))
    (funext fun d => funext fun p => blk3_at m c t d p)
    (funext fun p => funext fun d => blk4_at m c t p d)
    (funext fun d => funext fun j' => blk5_at m c t d j')
    (funext fun d => funext fun j' => (blk6_at m c t d j').trans (sub_self_of_isReal (hwo _)))
    (funext fun j' => blk7_at m c t j')
    (blk8_at m c t) j).trans ?_
  refine (rowOutSplit_eq_rowOut _ _ _ _ _ _ _ _ _ (fun j' => hx _) (fun j' d => hwq _) (fun _ _ => rfl)
    (fun d p => isReal_keyval _ _ hpe hwk p d) (fun p d => isReal_keyval _ _ hpe hwv p d) (fun _ _ => rfl) j).trans ?_
  rfl

/-- What point t writes back is block t of the specification of the argument arrays. -/
theorem flushed_eq (c : Dev nD)
    (hx : ∀ i, IsReal (argX m c i)) (hpe : ∀ i, IsReal (argPe m c i)) (hwq : ∀ i, IsReal (argWq m c i))
    (hwk : ∀ i, IsReal (argWk m c i)) (hwv : ∀ i, IsReal (argWv m c i)) (hwo : ∀ i, IsReal (argWo m c i)) (t : Fin cfg0.N) :
    (dats m 0 c).flushed 9 t = ((cfg0.win 9).blk t).view.read (Elt Ideal)
      (G (argX m c) (argPe m c) (argWq m c) (argWk m c) (argWv m c) (argWo m c) (argGw m c) (argGb m c)) := by
  rw [Value.flushed9]
  have key : ∀ y : S1x2048x1024.Idx,
      out0_9 (iblk m c 0 t) (iblk m c 1 t) (iblk m c 2 t) (iblk m c 3 t) (iblk m c 4 t) (iblk m c 5 t) (iblk m c 6 t)
        (iblk m c 7 t) (iblk m c 8 t) y
      = G (argX m c) (argPe m c) (argWq m c) (argWk m c) (argWv m c) (argWo m c) (argGw m c) (argGb m c)
          (((cfg0.win 9).blk t).view.emb y) := by
    intro y
    obtain ⟨z, r, j, rfl⟩ : ∃ (z : Fin 1) (r : Fin 2048) (j : Fin 1024), y = ix3 z r j := ⟨y 0, y 1, y 2, eq_ix3 y⟩
    obtain rfl : z = 0 := Subsingleton.elim _ _
    rw [emb9_at]
    exact flushed_at m c t r j hx hpe hwq hwk hwv hwo
  funext y
  exact key y

/-! ## The cover, and the array after the run -/

theorem mem_blk9 (t : Fin cfg0.N) (i : S8x4096x1024.Idx) :
    i ∈ ((cfg0.win 9).blk t).view.set ↔ ∀ a : Fin 3, win0_9.index t a * S1x2048x1024.size a ≤ (i a).val
      ∧ (i a).val < win0_9.index t a * S1x2048x1024.size a + S1x2048x1024.size a := by
  show i ∈ ((View.whole main_v18).slice (win0_9.rect t)).set ↔ _
  rw [View.set_slice_whole, Rect.mem_set_unit]
  exact Iff.rfl

/-- Every index of the result lies in the block of the point (its batch element, the half its position is in). -/
theorem cover (i : S8x4096x1024.Idx) :
    ∃ t : Fin cfg0.N, (cfg0.win 9).flush t = true ∧ i ∈ ((cfg0.win 9).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 2048, by omega⟩
  have q0 : win0_9.index t (0 : Fin 3) = (i 0).val := congrFun ht 0
  have q1 : win0_9.index t (1 : Fin 3) = (i 1).val / 2048 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 2048 ≤ (i 1).val ∧ (i 1).val < win0_9.index t (1 : Fin 3) * 2048 + 2048; omega
  | ⟨2, _⟩ => show win0_9.index t (2 : Fin 3) * 1024 ≤ (i 2).val ∧ (i 2).val < win0_9.index t (2 : Fin 3) * 1024 + 1024; omega

/-- The result array after the run is the specification of the argument arrays. -/
theorem final (c : Dev nD)
    (hx : ∀ i, IsReal (argX m c i)) (hpe : ∀ i, IsReal (argPe m c i)) (hwq : ∀ i, IsReal (argWq m c i))
    (hwk : ∀ i, IsReal (argWk m c i)) (hwv : ∀ i, IsReal (argWv m c i)) (hwo : ∀ i, IsReal (argWo m c i)) :
    (dats m 0 c).arrAt 9 cfg0.N
      = G (argX m c) (argPe m c) (argWq m c) (argWk m c) (argWv m c) (argWo m c) (argGw m c) (argGb m c) :=
  (dats m 0 c).arrAt_eq_of_cover 9 _ (fun t _ => flushed_eq m c hx hpe hwq hwk hwv hwo t) cover

end Cert.Attn

end
-- ==== Proof.Ref.lean ====
/-
  The reference computes the specification: read at an index (b, s, m), each of its operations is the corresponding
  step of the row (b, s) of the specification.
-/
import proofs.«414104_j8186207666960_3_alg».proof.Proof.Spec
import proofs.«414104_j8186207666960_3_alg».proof.Proof.Gen.ReferenceIdeal.Read

noncomputable section

namespace Cert.Attn

open Idealize.ShloMosaic Idealize.ShloMosaic.ValueIdx Cert.ReferenceIdeal

/-! ## Two indices with equal coordinates are equal -/

/-- Rank-3 indices agree when their three coordinates have equal values. -/
local macro "idx3" : tactic =>
  `(tactic| exact funext fun a => Fin.ext (by match a with | ⟨0, _⟩ => rfl | ⟨1, _⟩ => rfl | ⟨2, _⟩ => rfl))

/-- Rank-2 indices agree when their two coordinates have equal values. -/
local macro "idx2" : tactic =>
  `(tactic| exact funext fun a => Fin.ext (by match a with | ⟨0, _⟩ => rfl | ⟨1, _⟩ => rfl))

/-- Rank-1 indices agree when their coordinate has equal values. -/
local macro "idx1" : tactic =>
  `(tactic| exact funext fun a => Fin.ext (by match a with | ⟨0, _⟩ => rfl))

section Stages

variable (x0 : (⟨S8x4096x1024, .f32⟩ : BufTy).Contents (Elt Ideal)) (x1 : (⟨S256x128, .f32⟩ : BufTy).Contents (Elt Ideal))
  (x2 : (⟨S128x1024, .f32⟩ : BufTy).Contents (Elt Ideal)) (x3 x4 : (⟨S128x128, .f32⟩ : BufTy).Contents (Elt Ideal))
  (x5 : (⟨S1024x128, .f32⟩ : BufTy).Contents (Elt Ideal)) (x6 : (⟨S1x1024, .f32⟩ : BufTy).Contents (Elt Ideal))
  (x7 : (⟨S1, .f32⟩ : BufTy).Contents (Elt Ideal))

/-- The row (b, s) of the input. -/
private abbrev rowX (b : Fin 8) (s : Fin 4096) : Fin 1024 → EReal := fun m => x0 (ix3 b s m)

/-- The query weights, feature first. -/
private abbrev wqOf : Fin 1024 → Fin 128 → EReal := fun m d => x2 (ix2 d m)

/-- The scores of row (b, s) as the specification builds them. -/
private abbrev scoreRow (b : Fin 8) (s : Fin 4096) : Fin 256 → EReal :=
  score (query (rowX x0 b s) (wqOf x2)) (fun d p => keyval x1 x3 p d)

/-- The first contraction is the query of the row. -/
private theorem v0_query (b : Fin 8) (s : Fin 4096) (d : Fin 128) :
    Read.val_main_v0 (F := Ideal) x0 x2 (ix3 b s d) = query (rowX x0 b s) (wqOf x2) d := by
  rw [Read.val_main_v0_apply]
  unfold query
  refine Finset.sum_congr rfl fun k _ => ?_
  have el : Read.lidx_main_v0 (ix3 b s d) k = ix3 b s k := by idx3
  have er : Read.ridx_main_v0 (ix3 b s d) k = ix2 d k := by idx2
  rw [el, er]

/-- The keys: the table's row p against row d of the key weights. -/
private theorem v2_keys (p : Fin 256) (d : Fin 128) :
    Read.val_main_v2 (F := Ideal) x1 x3 (ix2 p d) = keyval x1 x3 p d := by
  rw [Read.val_main_v2_apply]
  unfold keyval
  refine Finset.sum_congr rfl fun k _ => ?_
  rw [Read.val_main_v1_apply]
  have el : Read.lidx_main_v2 (ix2 p d) k = ix2 p k := by idx2
  have er : Read.idx_main_v1 (Read.ridx_main_v2 (ix2 p d) k) = ix2 d k := by idx2
  rw [el, er]

/-- The values: the table's row p against row d of the value weights. -/
private theorem v4_values (p : Fin 256) (d : Fin 128) :
    Read.val_main_v4 (F := Ideal) x1 x4 (ix2 p d) = keyval x1 x4 p d := by
  rw [Read.val_main_v4_apply]
  unfold keyval
  refine Finset.sum_congr rfl fun k _ => ?_
  rw [Read.val_main_v3_apply]
  have el : Read.lidx_main_v4 (ix2 p d) k = ix2 p k := by idx2
  have er : Read.idx_main_v3 (Read.ridx_main_v4 (ix2 p d) k) = ix2 d k := by idx2
  rw [el, er]

/-- The scaled contraction of the query against the keys is the score. -/
private theorem v7_score (b : Fin 8) (s : Fin 4096) (p : Fin 256) :
    Read.val_main_v7 (F := Ideal) x0 x1 x2 x3 (ix3 b s p) = scoreRow x0 x1 x2 x3 b s p := by
  rw [Read.val_main_v7_apply, Read.val_main_v6_apply, Read.val_main_cst_apply, Read.val_main_v5_apply]
  show (∑ k : Fin 128, _) * Ideal.ofBits .f32 0x3DB504F3#32 = _
  unfold scoreRow score scale
  refine congrArg (· * Ideal.ofBits .f32 0x3DB504F3#32) ?_
  refine Finset.sum_congr rfl fun k _ => ?_
  have el : Read.lidx_main_v5 (ix3 b s p) k = ix3 b s k := by idx3
  have er : Read.ridx_main_v5 (ix3 b s p) k = ix2 p k := by idx2
  rw [el, er, v0_query, v2_keys]

/-- The reduced index (b, s) with coordinate k put back on the last axis is (b, s, k). -/
private theorem lift_last (h : S8x4096x256.Reduces [2] S8x4096) (b : Fin 8) (s : Fin 4096) (k : Fin (S8x4096x256.size 2)) :
    h.lift (ix2 b s) k = ix3 b s (⟨k.val, k.isLt⟩ : Fin 256) :=
  funext fun c => Fin.ext (by match c with | ⟨0, _⟩ => rfl | ⟨1, _⟩ => rfl | ⟨2, _⟩ => rfl)

/-- The maximum-reduce over the last axis, from minus infinity, is the fold of max over the row's 256 scores. -/
private theorem v8_fold (b : Fin 8) (s : Fin 4096) :
    Read.val_main_v8 (F := Ideal) x0 x1 x2 x3 (ix2 b s)
      = (Finset.univ : Finset (Fin 256)).fold max negInf (scoreRow x0 x1 x2 x3 b s) := by
  unfold Read.val_main_v8
  have h : S8x4096x256.Reduces [2] S8x4096 := by decide
  rw [Host.reduce_eq_fold_single FloatOps.maximumf _ _ _ h]
  have hf : (Read.val_main_v7 (F := Ideal) x0 x1 x2 x3 ∘ h.lift (ix2 b s)) = scoreRow x0 x1 x2 x3 b s :=
    funext fun k => by
      show Read.val_main_v7 (F := Ideal) x0 x1 x2 x3 (h.lift (ix2 b s) k) = _
      rw [lift_last h b s k, v7_score]
      rfl
  rw [hf]
  rfl

/-- Taking the maximum with minus infinity once more changes nothing: the row maximum. -/
private theorem v10_rowMax (b : Fin 8) (s : Fin 4096) :
    Read.val_main_v10 (F := Ideal) x0 x1 x2 x3 (ix2 b s) = rowMax (scoreRow x0 x1 x2 x3 b s) := by
  rw [Read.val_main_v10_apply, Read.val_main_v9_apply, Read.val_main_cst_1_apply, v8_fold]
  show max negInf (Finset.fold max negInf (scoreRow x0 x1 x2 x3 b s) Finset.univ) = rowMax (scoreRow x0 x1 x2 x3 b s)
  unfold rowMax
  exact max_eq_right ((Finset.le_fold_max negInf).2 (Or.inl le_rfl))

/-- The exponential of the score less the row maximum. -/
private theorem v14_expo (b : Fin 8) (s : Fin 4096) (p : Fin 256) :
    Read.val_main_v14 (F := Ideal) x0 x1 x2 x3 (ix3 b s p) = expo (scoreRow x0 x1 x2 x3 b s) p := by
  rw [Read.val_main_v14_apply, Read.val_main_v13_apply, Read.val_main_v12_apply, Read.val_main_v11_apply]
  have e : Read.idx_main_v11 (Read.idx_main_v12 (ix3 b s p)) = ix2 b s := by idx2
  rw [e, v10_rowMax, v7_score]
  rfl

/-- The sum-reduce over the last axis, from zero, is the softmax denominator. -/
private theorem v15_denom (b : Fin 8) (s : Fin 4096) :
    Read.val_main_v15 (F := Ideal) x0 x1 x2 x3 (ix2 b s) = denom (scoreRow x0 x1 x2 x3 b s) := by
  rw [Read.val_main_v15_apply, Read.val_main_cst_2_apply]
  show Ideal.ofBits .f32 0x00000000#32 + _ = _
  rw [Ideal.ofBits_zero_f32, zero_add]
  unfold denom
  refine Finset.sum_congr rfl fun k _ => ?_
  have e : Read.idx_main_v15 (ix2 b s) k = ix3 b s k := by idx3
  rw [e, v14_expo]

/-- The quotient of the two is the softmax weight. -/
private theorem v18_weight (b : Fin 8) (s : Fin 4096) (p : Fin 256) :
    Read.val_main_v18 (F := Ideal) x0 x1 x2 x3 (ix3 b s p) = weight (scoreRow x0 x1 x2 x3 b s) p := by
  rw [Read.val_main_v18_apply, Read.val_main_v17_apply, Read.val_main_v16_apply]
  have e : Read.idx_main_v16 (Read.idx_main_v17 (ix3 b s p)) = ix2 b s := by idx2
  rw [e, v15_denom, v14_expo]
  rfl

/-- The weights against the values: the context. -/
private theorem v19_context (b : Fin 8) (s : Fin 4096) (d : Fin 128) :
    Read.val_main_v19 (F := Ideal) x0 x1 x2 x3 x4 (ix3 b s d)
      = context (weight (scoreRow x0 x1 x2 x3 b s)) (fun p d' => keyval x1 x4 p d') d := by
  rw [Read.val_main_v19_apply]
  unfold context
  refine Finset.sum_congr rfl fun k _ => ?_
  have el : Read.lidx_main_v19 (ix3 b s d) k = ix3 b s k := by idx3
  have er : Read.ridx_main_v19 (ix3 b s d) k = ix2 k d := by idx2
  rw [el, er, v18_weight, v4_values]

/-- The context against the output weights: the projection. -/
private theorem v20_project (b : Fin 8) (s : Fin 4096) (m : Fin 1024) :
    Read.val_main_v20 (F := Ideal) x0 x1 x2 x3 x4 x5 (ix3 b s m)
      = project (context (weight (scoreRow x0 x1 x2 x3 b s)) (fun p d' => keyval x1 x4 p d'))
          (fun d m' => x5 (ix2 m' d)) m := by
  rw [Read.val_main_v20_apply]
  unfold project
  refine Finset.sum_congr rfl fun k _ => ?_
  have el : Read.lidx_main_v20 (ix3 b s m) k = ix3 b s k := by idx3
  have er : Read.ridx_main_v20 (ix3 b s m) k = ix2 m k := by idx2
  rw [el, er, v19_context]

/-- The word 0x3F800000 is the number one. -/
private theorem one_word : Ideal.ofBits .f32 0x3F800000#32 = (1 : EReal) := IdealRules.sign_bit.ideal_onePat .f32

/-- One over one plus the exponential of the negated affine form of the row: the gate. -/
private theorem v30_gate (b : Fin 8) (s : Fin 4096) :
    Read.val_main_v30 (F := Ideal) x0 x6 x7 (ix3 b s (0 : Fin 1))
      = gate (rowX x0 b s) (fun m => x6 (ix2 (0 : Fin 1) m)) (x7 (ix1 (0 : Fin 1))) := by
  rw [Read.val_main_v30_apply, Read.val_main_v29_apply, Read.val_main_cst_4_apply, Read.val_main_v28_apply,
    Read.val_main_v27_apply, Read.val_main_cst_3_apply, Read.val_main_v26_apply, Read.val_main_v25_apply,
    Read.val_main_v24_apply, Read.val_main_v23_apply, Read.val_main_v22_apply, Read.val_main_v21_apply]
  have e7 : Read.idx_main_v22 (Read.idx_main_v23 (ix3 b s (0 : Fin 1))) = ix1 (0 : Fin 1) := by idx1
  rw [e7]
  have hsum : (∑ k : Fin 1024, x0 (Read.lidx_main_v21 (ix3 b s (0 : Fin 1)) k) * x6 (Read.ridx_main_v21 (ix3 b s (0 : Fin 1)) k))
      = ∑ m : Fin 1024, rowX x0 b s m * x6 (ix2 (0 : Fin 1) m) := by
    refine Finset.sum_congr rfl fun k _ => ?_
    have el : Read.lidx_main_v21 (ix3 b s (0 : Fin 1)) k = ix3 b s k := by idx3
    have er : Read.ridx_main_v21 (ix3 b s (0 : Fin 1)) k = ix2 (0 : Fin 1) k := by idx2
    rw [el, er]
  rw [hsum]
  show Ideal.div (Ideal.ofBits .f32 0x3F800000#32) (Ideal.ofBits .f32 0x3F800000#32 + Ideal.exp (-(_ + _))) = _
  rw [one_word]
  rfl

end Stages

theorem ref_is_G (x0 : (⟨S8x4096x1024, .f32⟩ : BufTy).Contents (Elt Ideal)) (x1 : (⟨S256x128, .f32⟩ : BufTy).Contents (Elt Ideal))
    (x2 : (⟨S128x1024, .f32⟩ : BufTy).Contents (Elt Ideal)) (x3 x4 : (⟨S128x128, .f32⟩ : BufTy).Contents (Elt Ideal))
    (x5 : (⟨S1024x128, .f32⟩ : BufTy).Contents (Elt Ideal)) (x6 : (⟨S1x1024, .f32⟩ : BufTy).Contents (Elt Ideal))
    (x7 : (⟨S1, .f32⟩ : BufTy).Contents (Elt Ideal)) :
    Cert.ReferenceIdeal.Read.val_main_v32 (F := Ideal) x0 x1 x2 x3 x4 x5 x6 x7 = G x0 x1 x2 x3 x4 x5 x6 x7 := by
  funext i
  obtain ⟨b, s, m, rfl⟩ : ∃ (b : Fin 8) (s : Fin 4096) (m : Fin 1024), i = ix3 b s m := ⟨i 0, i 1, i 2, eq_ix3 i⟩
  rw [G_ix3]
  unfold Gat rowOut
  rw [Read.val_main_v32_apply, Read.val_main_v31_apply]
  have e : Read.idx_main_v31 (ix3 b s m) = ix3 b s (0 : Fin 1) := by idx3
  rw [e, v30_gate, v20_project]
  rfl

end Cert.Attn

end
-- ==== Proof.Finite.lean ====
/-
  The precondition says every entry of every argument array is a real number: each conjunct is "all |a| < +inf", and an
  extended real whose absolute value is below +inf is neither infinity.
-/
import proofs.«414104_j8186207666960_3_alg».proof.Proof.Spec
import proofs.«414104_j8186207666960_3_alg».proof.Pre_finite_inputs
import Idealize.ShloMosaic.Lib.ReduceAll

noncomputable section

namespace Cert.Attn

open Idealize.ShloMosaic Idealize.ShloMosaic.ValueIdx Cert.Pre_finite_inputs

/-- The rank-0 shape has one index. -/
instance : Subsingleton S_.Idx := ⟨fun a b => funext fun d => d.elim0⟩

/-- The f32 word of plus infinity is the top of the extended reals. -/
theorem posInf_word : Ideal.ofBits .f32 0x7F800000#32 = (⊤ : EReal) := by
  simp [Ideal.ofBits, Ideal.ieee]

/-- An extended real whose absolute value max x (-x) is strictly below the top is a real number: at the bottom -x is
    the top, at the top x is. -/
theorem isReal_of_abs_lt_top (x : EReal) (h : Ideal.cmp .olt (max x (-x)) (⊤ : EReal) = 1#1) : IsReal x := by
  have hlt : max x (-x) < (⊤ : EReal) := by
    by_contra hn
    simp only [Ideal.cmp, hn, decide_false] at h
    exact absurd h (by decide)
  induction x using EReal.rec with
  | bot => exact absurd hlt (by simp)
  | top => exact absurd hlt (by simp)
  | coe r => exact ⟨r, rfl⟩

/-- "all |a| < +inf" over an array of any shape: when the conjunction of the comparisons over every axis is 1, every
    entry of the array is a real number. -/
theorem all_real {s : Shape} {axes : List (Fin s.rank)} (a : FVec Ideal s .f32) (hb : S_.BroadcastsInDim s ![])
    (hr : s.ReducesTo axes S_) (h0 : 0 < S_.numel) (init : IVec S_ 1)
    (e : Host.reduce IntOp.andi
        (cmpf .olt (Host.absf a) (broadcastInDim s ![] hb (constant (F := Ideal) S_ .f32 0x7F800000#32))) init hr h0 ix0 = 1#1)
    (i : s.Idx) : IsReal (a i) := by
  have hi := Host.reduce_andi_all _ init hr h0 ix0 e i
  refine isReal_of_abs_lt_top (a i) ?_
  rw [← posInf_word]
  exact hi

theorem args_real [Cert.Pre_finite_inputs.Facts] (x0 : FVec Ideal S8x4096x1024 .f32) (x1 : FVec Ideal S256x128 .f32)
    (x2 : FVec Ideal S128x1024 .f32) (x3 x4 : FVec Ideal S128x128 .f32) (x5 : FVec Ideal S1024x128 .f32)
    (x6 : FVec Ideal S1x1024 .f32) (x7 : FVec Ideal S1 .f32)
    (h : Cert.Pre_finite_inputs.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) := by
  have h' := congrFun h ix0
  dsimp only [fn, fn_part1, fn_part2] at h'
  -- the printed conjunction nests to the left: ((((((c0 ∧ c1) ∧ c2) ∧ c3) ∧ c4) ∧ c5) ∧ c6) ∧ c7
  obtain ⟨h', c7⟩ := IntOp.andi_eq_one.1 h'
  obtain ⟨h', c6⟩ := IntOp.andi_eq_one.1 h'
  obtain ⟨h', c5⟩ := IntOp.andi_eq_one.1 h'
  obtain ⟨h', c4⟩ := IntOp.andi_eq_one.1 h'
  obtain ⟨h', c3⟩ := IntOp.andi_eq_one.1 h'
  obtain ⟨h', c2⟩ := IntOp.andi_eq_one.1 h'
  obtain ⟨c0, c1⟩ := IntOp.andi_eq_one.1 h'
  exact ⟨all_real x0 _ _ _ _ c0, all_real x1 _ _ _ _ c1, all_real x2 _ _ _ _ c2, all_real x3 _ _ _ _ c3,
    all_real x4 _ _ _ _ c4, all_real x5 _ _ _ _ c5, all_real x6 _ _ _ _ c6, all_real x7 _ _ _ _ c7⟩

end Cert.Attn

end
-- ==== Proof.lean ====
/-
  Gated single-head cross attention, a tiled kernel against its whole-array reference, equal on the extended reals.

  Both programs compute, for every batch element b, position s and feature m,
      y[b, s, m] = g[b, s] * sum_d c[b, s, d] * Wo[m, d],
  where c = softmax_p(scale * (x Wq^T)(pe Wk^T)^T) (pe Wv^T) is the attention context over the 256 rows of the table pe
  and g = 1 / (1 + exp(-(x . gate_w + gate_b))) is a sigmoid gate (Proof/Spec.lean writes this out one row at a time).

  The reference computes it with whole-array contractions (Proof/Ref.lean reads them index by index). The kernel works
  on 16 blocks of 2048 rows; on each it splits the operands of the two long projections into a leading part and a
  remainder and adds three cross products. On exact numbers a change of float format is the identity, so the leading part
  is the operand itself and the remainder is a - a, which is 0 for a real number: the precondition makes the inputs real
  (Proof/Finite.lean), sums, products, exponentials and the softmax quotient of reals are real (Proof/RowMath.lean), so the
  remainders vanish and the kernel's row is the reference's row (Proof/Pay.lean for the body, Proof/HostWindows.lean for
  the operands prepared before the call, Proof/Blocks.lean for the tiling). The temperature scale is one f32 word shared by
  the two programs and is never evaluated.

  The two format-change rewrites of the idealization are the rule's statement at their shapes; the three frames are the
  programs' runs with the values dropped.
-/
import proofs.«414104_j8186207666960_3_alg».proof.Defs
import proofs.«414104_j8186207666960_3_alg».proof.Proof.Gen.Kernel
import proofs.«414104_j8186207666960_3_alg».proof.Proof.Gen.Kernel.Skeleton
import proofs.«414104_j8186207666960_3_alg».proof.Proof.Gen.Kernel.Launch
import proofs.«414104_j8186207666960_3_alg».proof.Proof.Gen.Kernel.Points
import proofs.«414104_j8186207666960_3_alg».proof.Proof.Gen.Kernel.Frame
import proofs.«414104_j8186207666960_3_alg».proof.Proof.Gen.KernelIdeal
import proofs.«414104_j8186207666960_3_alg».proof.Proof.Gen.KernelIdeal.Skeleton
import proofs.«414104_j8186207666960_3_alg».proof.Proof.Gen.KernelIdeal.Launch
import proofs.«414104_j8186207666960_3_alg».proof.Proof.Gen.KernelIdeal.Points
import proofs.«414104_j8186207666960_3_alg».proof.Proof.Gen.KernelIdeal.Frame
import proofs.«414104_j8186207666960_3_alg».proof.Proof.Gen.ReferenceIdeal
import proofs.«414104_j8186207666960_3_alg».proof.Proof.Gen.Pre_finite_inputs
import proofs.«414104_j8186207666960_3_alg».proof.Proof.Gen.KernelIdeal.Value
import proofs.«414104_j8186207666960_3_alg».proof.Proof.Gen.ReferenceIdeal.Run
import proofs.«414104_j8186207666960_3_alg».proof.Proof.Gen.ReferenceIdeal.Read
import proofs.«414104_j8186207666960_3_alg».proof.Proof.Blocks
import proofs.«414104_j8186207666960_3_alg».proof.Proof.Ref
import proofs.«414104_j8186207666960_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on exact numbers, at both shapes where the idealization used it. -/
theorem preserves : Cert.preserves_Kernel_KernelIdeal :=
  ⟨IdealRules.truncf_extf.statement _ .f32 .bf16, IdealRules.truncf_extf.statement _ .f32 .bf16⟩

/-- Both programs end with the result array at the specification of the (agreeing) argument arrays. -/
theorem algebraic : Cert.algebraic_KernelIdeal_ReferenceIdeal := by
  intro m ρ m' ρ' hpre hagree
  refine ⟨fun c => Cert.Attn.G (Cert.Attn.argX m c) (Cert.Attn.argPe m c) (Cert.Attn.argWq m c) (Cert.Attn.argWk m c)
    (Cert.Attn.argWv m c) (Cert.Attn.argWo m c) (Cert.Attn.argGw m c) (Cert.Attn.argGb m c), ?_, ?_⟩
  · refine (θ_run Cert.KernelIdeal.defs _ _).mono (fun r h c => ⟨(h c).1.trans ?_, (h c).2⟩)
      (Cert.KernelIdeal.Value.run_blocks m ρ)
    obtain ⟨hx, hpe, hwq, hwk, hwv, hwo, -, -⟩ := Cert.Attn.args_real _ _ _ _ _ _ _ _ (hpre c)
    exact Cert.Attn.final m c hx hpe hwq hwk hwv hwo
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v32_eq, Cert.Attn.ref_is_G, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
